-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_v86) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512 : Shape := ⟨2, ![256, 512]⟩
abbrev S256x2x512 : Shape := ⟨3, ![256, 2, 512]⟩
abbrev S256x1 : Shape := ⟨2, ![256, 1]⟩
abbrev S1536x512 : Shape := ⟨2, ![1536, 512]⟩
abbrev S1536 : Shape := ⟨1, ![1536]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel
  bcast_S_S256x2x512 : S_.BroadcastsInDim S256x2x512 (![] : Fin 0 → Fin S256x2x512.rank)
  reducesTo_S256x2x512_S_d0_1_2 : S256x2x512.ReducesTo [0, 1, 2] S_
  bcast_S_S1536x512 : S_.BroadcastsInDim S1536x512 (![] : Fin 0 → Fin S1536x512.rank)
  reducesTo_S1536x512_S_d0_1 : S1536x512.ReducesTo [0, 1] S_
  bcast_S_S1536 : S_.BroadcastsInDim S1536 (![] : Fin 0 → Fin S1536.rank)
  reducesTo_S1536_S_d0 : S1536.ReducesTo [0] S_

variable [Facts]

def fn_part2 {F : FTy → Type} [FloatOps F] (main_arg8 : FVec F S1536x512 .f32) (main_arg9 : FVec F S1536 .f32) (main_arg10 : FVec F S1536 .f32) (main_v33 : IVec S_ 1) : IVec S_ 1 :=
  let main_v34 : FVec F S1536x512 .f32 := Host.absf main_arg8
  let main_cst_12 : FVec F S_ .f32 := constant S_ .f32 0x7F800000#32
  let main_v35 : FVec F S1536x512 .f32 := broadcastInDim S1536x512 ![] bcast_S_S1536x512 main_cst_12
  let main_v36 : IVec S1536x512 1 := cmpf .olt main_v34 main_v35
  let main_c_13 : IVec S_ 1 := constantI S_ 1 1#1
  let main_v37 : IVec S_ 1 := (fun x v => Host.reduce IntOp.andi x v reducesTo_S1536x512_S_d0_1 h_S_) main_v36 main_c_13
  let main_v38 : IVec S_ 1 := andi main_v33 main_v37
  let main_v39 : FVec F S1536 .f32 := Host.absf main_arg9
  let main_cst_14 : FVec F S_ .f32 := constant S_ .f32 0x7F800000#32
  let main_v40 : FVec F S1536 .f32 := broadcastInDim S1536 ![] bcast_S_S1536 main_cst_14
  let main_v41 : IVec S1536 1 := cmpf .olt main_v39 main_v40
  let main_c_15 : IVec S_ 1 := constantI S_ 1 1#1
  let main_v42 : IVec S_ 1 := (fun x v => Host.reduce IntOp.andi x v reducesTo_S1536_S_d0 h_S_) main_v41 main_c_15
  let main_v43 : IVec S_ 1 := andi main_v38 main_v42
  let main_v44 : FVec F S1536 .f32 := Host.absf main_arg10
  let main_cst_16 : FVec F S_ .f32 := constant S_ .f32 0x7F800000#32
  let main_v45 : FVec F S1536 .f32 := broadcastInDim S1536 ![] bcast_S_S1536 main_cst_16
  let main_v46 : IVec S1536 1 := cmpf .olt main_v44 main_v45
  let main_c_17 : IVec S_ 1 := constantI S_ 1 1#1
  let main_v47 : IVec S_ 1 := (fun x v => Host.reduce IntOp.andi x v reducesTo_S1536_S_d0 h_S_) main_v46 main_c_17
  let main_v48 : IVec S_ 1 := andi main_v43 main_v47
  main_v48

def fn_part1 {F : FTy → Type} [FloatOps F] (main_arg5 : FVec F S1536 .f32) (main_arg6 : FVec F S1536 .f32) (main_arg7 : FVec F S1536x512 .f32) (main_arg8 : FVec F S1536x512 .f32) (main_arg9 : FVec F S1536 .f32) (main_arg10 : FVec F S1536 .f32) (main_v13 : IVec S_ 1) (main_v16 : IVec S1536x512 1) : IVec S_ 1 :=
  let main_c_5 : IVec S_ 1 := constantI S_ 1 1#1
  let main_v17 : IVec S_ 1 := (fun x v => Host.reduce IntOp.andi x v reducesTo_S1536x512_S_d0_1 h_S_) main_v16 main_c_5
  let main_v18 : IVec S_ 1 := andi main_v13 main_v17
  let main_v19 : FVec F S1536 .f32 := Host.absf main_arg5
  let main_cst_6 : FVec F S_ .f32 := constant S_ .f32 0x7F800000#32
  let main_v20 : FVec F S1536 .f32 := broadcastInDim S1536 ![] bcast_S_S1536 main_cst_6
  let main_v21 : IVec S1536 1 := cmpf .olt main_v19 main_v20
  let main_c_7 : IVec S_ 1 := constantI S_ 1 1#1
  let main_v22 : IVec S_ 1 := (fun x v => Host.reduce IntOp.andi x v reducesTo_S1536_S_d0 h_S_) main_v21 main_c_7
  let main_v23 : IVec S_ 1 := andi main_v18 main_v22
  let main_v24 : FVec F S1536 .f32 := Host.absf main_arg6
  let main_cst_8 : FVec F S_ .f32 := constant S_ .f32 0x7F800000#32
  let main_v25 : FVec F S1536 .f32 := broadcastInDim S1536 ![] bcast_S_S1536 main_cst_8
  let main_v26 : IVec S1536 1 := cmpf .olt main_v24 main_v25
  let main_c_9 : IVec S_ 1 := constantI S_ 1 1#1
  let main_v27 : IVec S_ 1 := (fun x v => Host.reduce IntOp.andi x v reducesTo_S1536_S_d0 h_S_) main_v26 main_c_9
  let main_v28 : IVec S_ 1 := andi main_v23 main_v27
  let main_v29 : FVec F S1536x512 .f32 := Host.absf main_arg7
  let main_cst_10 : FVec F S_ .f32 := constant S_ .f32 0x7F800000#32
  let main_v30 : FVec F S1536x512 .f32 := broadcastInDim S1536x512 ![] bcast_S_S1536x512 main_cst_10
  let main_v31 : IVec S1536x512 1 := cmpf .olt main_v29 main_v30
  let main_c_11 : IVec S_ 1 := constantI S_ 1 1#1
  let main_v32 : IVec S_ 1 := (fun x v => Host.reduce IntOp.andi x v reducesTo_S1536x512_S_d0_1 h_S_) main_v31 main_c_11
  let main_v33 : IVec S_ 1 := andi main_v28 main_v32
  fn_part2 (F := F) main_arg8 main_arg9 main_arg10 main_v33

def fn {F : FTy → Type} [FloatOps F] (main_arg0 : FVec F S256x512 .f32) (main_arg1 : FVec F S256x2x512 .f32) (main_arg2 : IVec S256x1 1) (main_arg3 : FVec F S1536x512 .f32) (main_arg4 : FVec F S1536x512 .f32) (main_arg5 : FVec F S1536 .f32) (main_arg6 : FVec F S1536 .f32) (main_arg7 : FVec F S1536x512 .f32) (main_arg8 : FVec F S1536x512 .f32) (main_arg9 : FVec F S1536 .f32) (main_arg10 : FVec F S1536 .f32) : IVec S_ 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  let main_v4 : FVec F S256x2x512 .f32 := Host.absf main_arg1
  let main_cst_0 : FVec F S_ .f32 := constant S_ .f32 0x7F800000#32
  let main_v5 : FVec F S256x2x512 .f32 := broadcastInDim S256x2x512 ![] bcast_S_S256x2x512 main_cst_0
  let main_v6 : IVec S256x2x512 1 := cmpf .olt main_v4 main_v5
  let main_c_1 : IVec S_ 1 := constantI S_ 1 1#1
  let main_v7 : IVec S_ 1 := (fun x v => Host.reduce IntOp.andi x v reducesTo_S256x2x512_S_d0_1_2 h_S_) main_v6 main_c_1
  let main_v8 : IVec S_ 1 := andi main_v3 main_v7
  let main_v9 : FVec F S1536x512 .f32 := Host.absf main_arg3
  let main_cst_2 : FVec F S_ .f32 := constant S_ .f32 0x7F800000#32
  let main_v10 : FVec F S1536x512 .f32 := broadcastInDim S1536x512 ![] bcast_S_S1536x512 main_cst_2
  let main_v11 : IVec S1536x512 1 := cmpf .olt main_v9 main_v10
  let main_c_3 : IVec S_ 1 := constantI S_ 1 1#1
  let main_v12 : IVec S_ 1 := (fun x v => Host.reduce IntOp.andi x v reducesTo_S1536x512_S_d0_1 h_S_) main_v11 main_c_3
  let main_v13 : IVec S_ 1 := andi main_v8 main_v12
  let main_v14 : FVec F S1536x512 .f32 := Host.absf main_arg4
  let main_cst_4 : FVec F S_ .f32 := constant S_ .f32 0x7F800000#32
  let main_v15 : FVec F S1536x512 .f32 := broadcastInDim S1536x512 ![] bcast_S_S1536x512 main_cst_4
  let main_v16 : IVec S1536x512 1 := cmpf .olt main_v14 main_v15
  fn_part1 (F := F) main_arg5 main_arg6 main_arg7 main_arg8 main_arg9 main_arg10 main_v13 main_v16
-- ==== Kernel.lean ====
abbrev S256x512 : Shape := ⟨2, ![256, 512]⟩
abbrev S256x2x512 : Shape := ⟨3, ![256, 2, 512]⟩
abbrev S256x1 : Shape := ⟨2, ![256, 1]⟩
abbrev S1536x512 : Shape := ⟨2, ![1536, 512]⟩
abbrev S1536 : Shape := ⟨1, ![1536]⟩
abbrev S1x1536 : Shape := ⟨2, ![1, 1536]⟩
abbrev S256x1x512 : Shape := ⟨3, ![256, 1, 512]⟩
abbrev S256x1536 : Shape := ⟨2, ![256, 1536]⟩

abbrev nBuf : Space → Nat
  | .hbm => 18
  | .vmem => 13
  | .smem => 0
  | _ => 0

abbrev bufTy : (tb : Table) → Fin (tcTables nBuf tb) → BufTy
  | .hbm, ⟨0, _⟩ => ⟨S256x512, .f32⟩
  | .hbm, ⟨1, _⟩ => ⟨S256x2x512, .f32⟩
  | .hbm, ⟨2, _⟩ => ⟨S256x1, .i1⟩
  | .hbm, ⟨3, _⟩ => ⟨S1536x512, .f32⟩
  | .hbm, ⟨4, _⟩ => ⟨S1536x512, .f32⟩
  | .hbm, ⟨5, _⟩ => ⟨S1536, .f32⟩
  | .hbm, ⟨6, _⟩ => ⟨S1536, .f32⟩
  | .hbm, ⟨7, _⟩ => ⟨S1536x512, .f32⟩
  | .hbm, ⟨8, _⟩ => ⟨S1536x512, .f32⟩
  | .hbm, ⟨9, _⟩ => ⟨S1536, .f32⟩
  | .hbm, ⟨10, _⟩ => ⟨S1536, .f32⟩
  | .hbm, ⟨11, _⟩ => ⟨S256x1, .f32⟩
  | .hbm, ⟨12, _⟩ => ⟨S1x1536, .f32⟩
  | .hbm, ⟨13, _⟩ => ⟨S1x1536, .f32⟩
  | .hbm, ⟨14, _⟩ => ⟨S1x1536, .f32⟩
  | .hbm, ⟨15, _⟩ => ⟨S1x1536, .f32⟩
  | .hbm, ⟨16, _⟩ => ⟨S256x512, .f32⟩
  | .hbm, ⟨17, _⟩ => ⟨S256x2x512, .f32⟩
  | .local _ .vmem, ⟨0, _⟩ => ⟨S256x512, .f32⟩
  | .local _ .vmem, ⟨1, _⟩ => ⟨S256x2x512, .f32⟩
  | .local _ .vmem, ⟨2, _⟩ => ⟨S256x1, .f32⟩
  | .local _ .vmem, ⟨3, _⟩ => ⟨S1536x512, .f32⟩
  | .local _ .vmem, ⟨4, _⟩ => ⟨S1536x512, .f32⟩
  | .local _ .vmem, ⟨5, _⟩ => ⟨S1x1536, .f32⟩
  | .local _ .vmem, ⟨6, _⟩ => ⟨S1x1536, .f32⟩
  | .local _ .vmem, ⟨7, _⟩ => ⟨S1536x512, .f32⟩
  | .local _ .vmem, ⟨8, _⟩ => ⟨S1536x512, .f32⟩
  | .local _ .vmem, ⟨9, _⟩ => ⟨S1x1536, .f32⟩
  | .local _ .vmem, ⟨10, _⟩ => ⟨S1x1536, .f32⟩
  | .local _ .vmem, ⟨11, _⟩ => ⟨S256x512, .f32⟩
  | .local _ .vmem, ⟨12, _⟩ => ⟨S256x2x512, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1536 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1536x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1536x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1536 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S256x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S256x2x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

class Facts₀ : Prop where
  shapeCasts_S1536_S1x1536 : S1536.ShapeCasts S1x1536
  inb_S256x512_S256x512_0_0 : ∀ a, (![0, 0] : Fin 2 → Nat) a + S256x512.size a ≤ S256x512.size a
  h_S256x512 : 0 < S256x512.numel
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x2x512_S256x1x512_0_0_0 : ∀ a, (![0, 0, 0] : Fin 3 → Nat) a + S256x1x512.size a ≤ S256x2x512.size a
  h_S256x1x512 : 0 < S256x1x512.numel
  shapeCasts_S256x1x512_S256x512 : S256x1x512.ShapeCasts S256x512
  broadcasts_S256x1_S256x512 : S256x1.Broadcasts S256x512
  inb_S256x2x512_S256x1x512_0_1_0 : ∀ a, (![0, 1, 0] : Fin 3 → Nat) a + S256x1x512.size a ≤ S256x2x512.size a
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  inb_S1536x512_S1536x512_0_0 : ∀ a, (![0, 0] : Fin 2 → Nat) a + S1536x512.size a ≤ S1536x512.size a
  h_S1536x512 : 0 < S1536x512.numel
  broadcasts_S1x1536_S256x1536 : S1x1536.Broadcasts S256x1536
  slices_S256x1536_o0_0_S256x512 : S256x1536.Slices ![0, 0] S256x512
  slices_S256x1536_o0_512_S256x512 : S256x1536.Slices ![0, 512] S256x512
  slices_S256x1536_o0_1024_S256x512 : S256x1536.Slices ![0, 1024] S256x512
  shapeCasts_S256x512_S256x1x512 : S256x512.ShapeCasts S256x1x512
  dot_S256x512_S1536x512_S256x1536_1_1_0_0_n_n_wf : DotDims.WF S256x512 S1536x512 S256x1536 [1] [1] [0] [0] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hstage0_5 : ∀ j, (stage0_5 j).IsWhole
  hstage0_6 : ∀ j, (stage0_6 j).IsWhole
  hstage0_7 : ∀ j, (stage0_7 j).IsWhole
  hstage0_8 : ∀ j, (stage0_8 j).IsWhole
  hstage0_9 : ∀ j, (stage0_9 j).IsWhole
  hstage0_10 : ∀ j, (stage0_10 j).IsWhole
  hstage0_11 : ∀ j, (stage0_11 j).IsWhole
  hstage0_12 : ∀ j, (stage0_12 j).IsWhole

variable [Facts₀]

def dot_S256x512_S1536x512_S256x1536_1_1_0_0_n_n : DotDims S256x512 S1536x512 S256x1536 where
  lhsContracting := [1]
  rhsContracting := [1]
  lhsNonContracting := [0]
  rhsNonContracting := [0]
  lhsBatch := []
  rhsBatch := []
  wf := dot_S256x512_S1536x512_S256x1536_1_1_0_0_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_v0) false false (stage0_2 0) (sem0_2 0) (Memref.isWhole_whole _) (hstage0_2 0)

abbrev win0_3 : Pipeline.Window sig grid0 :=
  Pipeline.Window.whole (Memref.whole main_arg3) false false (stage0_3 0) (sem0_3 0) (Memref.isWhole_whole _) (hstage0_3 0)

abbrev win0_4 : Pipeline.Window sig grid0 :=
  Pipeline.Window.whole (Memref.whole main_arg4) false false (stage0_4 0) (sem0_4 0) (Memref.isWhole_whole _) (hstage0_4 0)

abbrev win0_5 : Pipeline.Window sig grid0 :=
  Pipeline.Window.whole (Memref.whole main_v1) false false (stage0_5 0) (sem0_5 0) (Memref.isWhole_whole _) (hstage0_5 0)

abbrev win0_6 : Pipeline.Window sig grid0 :=
  Pipeline.Window.whole (Memref.whole main_v2) false false (stage0_6 0) (sem0_6 0) (Memref.isWhole_whole _) (hstage0_6 0)

abbrev win0_7 : Pipeline.Window sig grid0 :=
  Pipeline.Window.whole (Memref.whole main_arg7) false false (stage0_7 0) (sem0_7 0) (Memref.isWhole_whole _) (hstage0_7 0)

abbrev win0_8 : Pipeline.Window sig grid0 :=
  Pipeline.Window.whole (Memref.whole main_arg8) false false (stage0_8 0) (sem0_8 0) (Memref.isWhole_whole _) (hstage0_8 0)

abbrev win0_9 : Pipeline.Window sig grid0 :=
  Pipeline.Window.whole (Memref.whole main_v3) false false (stage0_9 0) (sem0_9 0) (Memref.isWhole_whole _) (hstage0_9 0)

abbrev win0_10 : Pipeline.Window sig grid0 :=
  Pipeline.Window.whole (Memref.whole main_v4) false false (stage0_10 0) (sem0_10 0) (Memref.isWhole_whole _) (hstage0_10 0)

abbrev win0_11 : Pipeline.Window sig grid0 :=
  Pipeline.Window.whole (Memref.whole main_v5_0) true false (stage0_11 0) (sem0_11 0) (Memref.isWhole_whole _) (hstage0_11 0)

abbrev win0_12 : Pipeline.Window sig grid0 :=
  Pipeline.Window.whole (Memref.whole main_v5_1) true false (stage0_12 0) (sem0_12 0) (Memref.isWhole_whole _) (hstage0_12 0)

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S256x512 : Shape := ⟨2, ![256, 512]⟩
abbrev S256x2x512 : Shape := ⟨3, ![256, 2, 512]⟩
abbrev S256x1 : Shape := ⟨2, ![256, 1]⟩
abbrev S1536x512 : Shape := ⟨2, ![1536, 512]⟩
abbrev S1536 : Shape := ⟨1, ![1536]⟩
abbrev S2x256x512 : Shape := ⟨3, ![2, 256, 512]⟩
abbrev S1x256x1 : Shape := ⟨3, ![1, 256, 1]⟩
abbrev S_ : Shape := ⟨0, ![]⟩
abbrev S1x256x512 : Shape := ⟨3, ![1, 256, 512]⟩
abbrev S512x1536 : Shape := ⟨2, ![512, 1536]⟩
abbrev S256x1536 : Shape := ⟨2, ![256, 1536]⟩
abbrev S1x1536 : Shape := ⟨2, ![1, 1536]⟩

abbrev nBuf : Space → Nat
  | .hbm => 111
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S256x2x512, .f32⟩
  | .hbm, ⟨2, _⟩ => ⟨S256x1, .i1⟩
  | .hbm, ⟨3, _⟩ => ⟨S1536x512, .f32⟩
  | .hbm, ⟨4, _⟩ => ⟨S1536x512, .f32⟩
  | .hbm, ⟨5, _⟩ => ⟨S1536, .f32⟩
  | .hbm, ⟨6, _⟩ => ⟨S1536, .f32⟩
  | .hbm, ⟨7, _⟩ => ⟨S1536x512, .f32⟩
  | .hbm, ⟨8, _⟩ => ⟨S1536x512, .f32⟩
  | .hbm, ⟨9, _⟩ => ⟨S1536, .f32⟩
  | .hbm, ⟨10, _⟩ => ⟨S1536, .f32⟩
  | .hbm, ⟨11, _⟩ => ⟨S2x256x512, .f32⟩
  | .hbm, ⟨12, _⟩ => ⟨S1x256x1, .i1⟩
  | .hbm, ⟨13, _⟩ => ⟨S_, .f32⟩
  | .hbm, ⟨14, _⟩ => ⟨S2x256x512, .i1⟩
  | .hbm, ⟨15, _⟩ => ⟨S2x256x512, .f32⟩
  | .hbm, ⟨16, _⟩ => ⟨S2x256x512, .f32⟩
  | .hbm, ⟨17, _⟩ => ⟨S1x256x512, .f32⟩
  | .hbm, ⟨18, _⟩ => ⟨S256x512, .f32⟩
  | .hbm, ⟨19, _⟩ => ⟨S512x1536, .f32⟩
  | .hbm, ⟨20, _⟩ => ⟨S256x1536, .f32⟩
  | .hbm, ⟨21, _⟩ => ⟨S1x1536, .f32⟩
  | .hbm, ⟨22, _⟩ => ⟨S256x1536, .f32⟩
  | .hbm, ⟨23, _⟩ => ⟨S256x1536, .f32⟩
  | .hbm, ⟨24, _⟩ => ⟨S512x1536, .f32⟩
  | .hbm, ⟨25, _⟩ => ⟨S256x1536, .f32⟩
  | .hbm, ⟨26, _⟩ => ⟨S1x1536, .f32⟩
  | .hbm, ⟨27, _⟩ => ⟨S256x1536, .f32⟩
  | .hbm, ⟨28, _⟩ => ⟨S256x1536, .f32⟩
  | .hbm, ⟨29, _⟩ => ⟨S256x512, .f32⟩
  | .hbm, ⟨30, _⟩ => ⟨S256x512, .f32⟩
  | .hbm, ⟨31, _⟩ => ⟨S256x512, .f32⟩
  | .hbm, ⟨32, _⟩ => ⟨S256x512, .f32⟩
  | .hbm, ⟨33, _⟩ => ⟨S256x512, .f32⟩
  | .hbm, ⟨34, _⟩ => ⟨S256x512, .f32⟩
  | .hbm, ⟨35, _⟩ => ⟨S256x512, .f32⟩
  | .hbm, ⟨36, _⟩ => ⟨S256x512, .f32⟩
  | .hbm, ⟨37, _⟩ => ⟨S256x512, .f32⟩
  | .hbm, ⟨38, _⟩ => ⟨S_, .f32⟩
  | .hbm, ⟨39, _⟩ => ⟨S256x512, .f32⟩
  | .hbm, ⟨40, _⟩ => ⟨S256x512, .f32⟩
  | .hbm, ⟨41, _⟩ => ⟨S_, .f32⟩
  | .hbm, ⟨42, _⟩ => ⟨S256x512, .f32⟩
  | .hbm, ⟨43, _⟩ => ⟨S256x512, .f32⟩
  | .hbm, ⟨44, _⟩ => ⟨S256x512, .f32⟩
  | .hbm, ⟨45, _⟩ => ⟨S256x512, .f32⟩
  | .hbm, ⟨46, _⟩ => ⟨S256x512, .f32⟩
  | .hbm, ⟨47, _⟩ => ⟨S_, .f32⟩
  | .hbm, ⟨48, _⟩ => ⟨S256x512, .f32⟩
  | .hbm, ⟨49, _⟩ => ⟨S256x512, .f32⟩
  | .hbm, ⟨50, _⟩ => ⟨S_, .f32⟩
  | .hbm, ⟨51, _⟩ => ⟨S256x512, .f32⟩
  | .hbm, ⟨52, _⟩ => ⟨S256x512, .f32⟩
  | .hbm, ⟨53, _⟩ => ⟨S256x512, .f32⟩
  | .hbm, ⟨54, _⟩ => ⟨S256x512, .f32⟩
  | .hbm, ⟨55, _⟩ => ⟨S256x512, .f32⟩
  | .hbm, ⟨56, _⟩ => ⟨S_, .f32⟩
  | .hbm, ⟨57, _⟩ => ⟨S256x512, .f32⟩
  | .hbm, ⟨58, _⟩ => ⟨S256x512, .f32⟩
  | .hbm, ⟨59, _⟩ => ⟨S256x512, .f32⟩
  | .hbm, ⟨60, _⟩ => ⟨S256x512, .f32⟩
  | .hbm, ⟨61, _⟩ => ⟨S256x512, .f32⟩
  | .hbm, ⟨62, _⟩ => ⟨S1x256x512, .f32⟩
  | .hbm, ⟨63, _⟩ => ⟨S256x512, .f32⟩
  | .hbm, ⟨64, _⟩ => ⟨S512x1536, .f32⟩
  | .hbm, ⟨65, _⟩ => ⟨S256x1536, .f32⟩
  | .hbm, ⟨66, _⟩ => ⟨S1x1536, .f32⟩
  | .hbm, ⟨67, _⟩ => ⟨S256x1536, .f32⟩
  | .hbm, ⟨68, _⟩ => ⟨S256x1536, .f32⟩
  | .hbm, ⟨69, _⟩ => ⟨S512x1536, .f32⟩
  | .hbm, ⟨70, _⟩ => ⟨S256x1536, .f32⟩
  | .hbm, ⟨71, _⟩ => ⟨S1x1536, .f32⟩
  | .hbm, ⟨72, _⟩ => ⟨S256x1536, .f32⟩
  | .hbm, ⟨73, _⟩ => ⟨S256x1536, .f32⟩
  | .hbm, ⟨74, _⟩ => ⟨S256x512, .f32⟩
  | .hbm, ⟨75, _⟩ => ⟨S256x512, .f32⟩
  | .hbm, ⟨76, _⟩ => ⟨S256x512, .f32⟩
  | .hbm, ⟨77, _⟩ => ⟨S256x512, .f32⟩
  | .hbm, ⟨78, _⟩ => ⟨S256x512, .f32⟩
  | .hbm, ⟨79, _⟩ => ⟨S256x512, .f32⟩
  | .hbm, ⟨80, _⟩ => ⟨S256x512, .f32⟩
  | .hbm, ⟨81, _⟩ => ⟨S256x512, .f32⟩
  | .hbm, ⟨82, _⟩ => ⟨S256x512, .f32⟩
  | .hbm, ⟨83, _⟩ => ⟨S_, .f32⟩
  | .hbm, ⟨84, _⟩ => ⟨S256x512, .f32⟩
  | .hbm, ⟨85, _⟩ => ⟨S256x512, .f32⟩
  | .hbm, ⟨86, _⟩ => ⟨S_, .f32⟩
  | .hbm, ⟨87, _⟩ => ⟨S256x512, .f32⟩
  | .hbm, ⟨88, _⟩ => ⟨S256x512, .f32⟩
  | .hbm, ⟨89, _⟩ => ⟨S256x512, .f32⟩
  | .hbm, ⟨90, _⟩ => ⟨S256x512, .f32⟩
  | .hbm, ⟨91, _⟩ => ⟨S256x512, .f32⟩
  | .hbm, ⟨92, _⟩ => ⟨S_, .f32⟩
  | .hbm, ⟨93, _⟩ => ⟨S256x512, .f32⟩
  | .hbm, ⟨94, _⟩ => ⟨S256x512, .f32⟩
  | .hbm, ⟨95, _⟩ => ⟨S_, .f32⟩
  | .hbm, ⟨96, _⟩ => ⟨S256x512, .f32⟩
  | .hbm, ⟨97, _⟩ => ⟨S256x512, .f32⟩
  | .hbm, ⟨98, _⟩ => ⟨S256x512, .f32⟩
  | .hbm, ⟨99, _⟩ => ⟨S256x512, .f32⟩
  | .hbm, ⟨100, _⟩ => ⟨S256x512, .f32⟩
  | .hbm, ⟨101, _⟩ => ⟨S_, .f32⟩
  | .hbm, ⟨102, _⟩ => ⟨S256x512, .f32⟩
  | .hbm, ⟨103, _⟩ => ⟨S256x512, .f32⟩
  | .hbm, ⟨104, _⟩ => ⟨S256x512, .f32⟩
  | .hbm, ⟨105, _⟩ => ⟨S256x512, .f32⟩
  | .hbm, ⟨106, _⟩ => ⟨S256x512, .f32⟩
  | .hbm, ⟨107, _⟩ => ⟨S1x256x512, .f32⟩
  | .hbm, ⟨108, _⟩ => ⟨S1x256x512, .f32⟩
  | .hbm, ⟨109, _⟩ => ⟨S2x256x512, .f32⟩
  | .hbm, ⟨110, _⟩ => ⟨S256x2x512, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_0 : Ref sig .tc := ⟨.hbm, 38, rfl⟩
abbrev main_v24 : Ref sig .tc := ⟨.hbm, 39, rfl⟩
abbrev main_v25 : Ref sig .tc := ⟨.hbm, 40, rfl⟩
abbrev main_cst_1 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_2 : Ref sig .tc := ⟨.hbm, 47, rfl⟩
abbrev main_v31 : Ref sig .tc := ⟨.hbm, 48, rfl⟩
abbrev main_v32 : Ref sig .tc := ⟨.hbm, 49, rfl⟩
abbrev main_cst_3 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_4 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_cst_5 : Ref sig .tc := ⟨.hbm, 83, rfl⟩
abbrev main_v64 : Ref sig .tc := ⟨.hbm, 84, rfl⟩
abbrev main_v65 : Ref sig .tc := ⟨.hbm, 85, rfl⟩
abbrev main_cst_6 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_7 : Ref sig .tc := ⟨.hbm, 92, rfl⟩
abbrev main_v71 : Ref sig .tc := ⟨.hbm, 93, rfl⟩
abbrev main_v72 : Ref sig .tc := ⟨.hbm, 94, rfl⟩
abbrev main_cst_8 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_cst_9 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩

abbrev nD : Nat := 1
abbrev τ : Topo := Topo.v7x

variable {F : FTy → Type} [FloatOps F]

class Facts₀ : Prop where
  transposes_S256x2x512_S2x256x512_1_0_2 : S256x2x512.Transposes [1, 0, 2] S2x256x512
  shapeCasts_S256x1_S1x256x1 : S256x1.ShapeCasts S1x256x1
  bcast_S1x256x1_S2x256x512_0_1_2 : S1x256x1.BroadcastsInDim S2x256x512 (![0, 1, 2] : Fin 3 → Fin S2x256x512.rank)
  bcast_S_S2x256x512 : S_.BroadcastsInDim S2x256x512 (![] : Fin 0 → Fin S2x256x512.rank)
  slices_S2x256x512_S1x256x512_0_0_0 : S2x256x512.Slices ![0, 0, 0] S1x256x512
  shapeCasts_S1x256x512_S256x512 : S1x256x512.ShapeCasts S256x512
  transposes_S1536x512_S512x1536_1_0 : S1536x512.Transposes [1, 0] S512x1536
  bcast_S1536_S1x1536_1 : S1536.BroadcastsInDim S1x1536 (![1] : Fin 1 → Fin S1x1536.rank)
  bcast_S1x1536_S256x1536_0_1 : S1x1536.BroadcastsInDim S256x1536 (![0, 1] : Fin 2 → Fin S256x1536.rank)
  slices_S256x1536_S256x512_0_0 : S256x1536.Slices ![0, 0] S256x512
  slices_S256x1536_S256x512_0_512 : S256x1536.Slices ![0, 512] S256x512
  slices_S256x1536_S256x512_0_1024 : S256x1536.Slices ![0, 1024] S256x512
  bcast_S_S256x512 : S_.BroadcastsInDim S256x512 (![] : Fin 0 → Fin S256x512.rank)
  slices_S2x256x512_S1x256x512_1_0_0 : S2x256x512.Slices ![1, 0, 0] S1x256x512
  bcast_S256x512_S1x256x512_1_2 : S256x512.BroadcastsInDim S1x256x512 (![1, 2] : Fin 2 → Fin S1x256x512.rank)
  concatenates_S1x256x512_S1x256x512_S2x256x512_d0 : Shape.Concatenates [S1x256x512, S1x256x512] S2x256x512 0
  transposes_S2x256x512_S256x2x512_1_0_2 : S2x256x512.Transposes [1, 0, 2] S256x2x512
  dot_S256x512_S512x1536_S256x1536_1_0_0_1_n_n_wf : DotDims.WF S256x512 S512x1536 S256x1536 [1] [0] [0] [1] [] []

variable [Facts₀]

def dot_S256x512_S512x1536_S256x1536_1_0_0_1_n_n : DotDims S256x512 S512x1536 S256x1536 where
  lhsContracting := [1]
  rhsContracting := [0]
  lhsNonContracting := [0]
  rhsNonContracting := [1]
  lhsBatch := []
  rhsBatch := []
  wf := dot_S256x512_S512x1536_S256x1536_1_0_0_1_n_n_wf

class Facts : Prop extends Facts₀ where

variable [Facts]
-- ==== Proof.Spec.lean ====
/-
  What a single step of a two-layer gated recurrent unit computes, index by index, on the extended reals.

  The inputs are the step's input `x` (256 rows of 512), the hidden states `hid` (256 rows, 2 layers, 512), one
  bit per row `msk` saying whether the row's episode goes on, and per layer two weight matrices (1536 × 512) and
  two bias vectors (1536).

  * `hreset l hid msk`: layer `l`'s hidden state, a row replaced by zeros where its bit is clear.
  * `affine x W b`: `x Wᵀ + b`, entry (p, q) the sum over k of `x[p, k] · W[q, k]`, plus `b[q]`.
  * `cell gi gh h`: from the two pre-activations (1536 columns: reset, update and candidate thirds) and the
    previous hidden state, `r = σ(gi_r + gh_r)`, `z = σ(gi_z + gh_z)`, `n = tanh(gi_n + r · gh_n)`, and the new
    state `(1 − z) · n + z · h`, with `σ v = 1 / (1 + e^(−v))`.
  * `stack a b`: the two layers' new states laid side by side on the middle axis.
-/
import Idealize.ShloMosaic.PureOps.Ideal
import Idealize.ShloMosaic.Lib.ValueIdx

noncomputable section

open scoped BigOperators

namespace Cert.Gru

open Idealize.ShloMosaic Idealize.ShloMosaic.ValueIdx

abbrev SX : Shape := ⟨2, ![256, 512]⟩
abbrev SH : Shape := ⟨3, ![256, 2, 512]⟩
abbrev SM : Shape := ⟨2, ![256, 1]⟩
abbrev SW : Shape := ⟨2, ![1536, 512]⟩
abbrev SB : Shape := ⟨1, ![1536]⟩
abbrev SG : Shape := ⟨2, ![256, 1536]⟩

/-- Layer `l`'s hidden state with the rows whose bit is clear replaced by zeros. -/
def hreset (l : Fin 2) (hid : FVec Ideal SH .f32) (msk : IVec SM 1) : FVec Ideal SX .f32 :=
  fun i => Scalar.select (msk (ix2 (i 0 : Fin 256) (0 : Fin 1))) (hid (ix3 (i 0 : Fin 256) l (i 1 : Fin 512))) (0 : EReal)

/-- `x Wᵀ + b`. -/
def affine (x : FVec Ideal SX .f32) (W : FVec Ideal SW .f32) (b : FVec Ideal SB .f32) : FVec Ideal SG .f32 :=
  fun i => (∑ k : Fin 512, x (ix2 (i 0 : Fin 256) k) * W (ix2 (i 1 : Fin 1536) k)) + b (ix1 (i 1 : Fin 1536))

/-- Column `j + off` of row `p` of a pre-activation. -/
abbrev third (g : FVec Ideal SG .f32) (off : Nat) (hoff : off + 512 ≤ 1536) (p : Fin 256) (j : Fin 512) : EReal :=
  g (ix2 p (⟨j.val + off, by have := j.isLt; omega⟩ : Fin 1536))

/-- The gated recurrent unit's new state from the two pre-activations and the previous state. -/
def cell (gi gh : FVec Ideal SG .f32) (h : FVec Ideal SX .f32) : FVec Ideal SX .f32 := fun i =>
  (1 - Ideal.logistic (third gi 512 (by omega) (i 0) (i 1) + third gh 512 (by omega) (i 0) (i 1)))
      * Ideal.tanh (third gi 1024 (by omega) (i 0) (i 1)
          + Ideal.logistic (third gi 0 (by omega) (i 0) (i 1) + third gh 0 (by omega) (i 0) (i 1)) * third gh 1024 (by omega) (i 0) (i 1))
    + Ideal.logistic (third gi 512 (by omega) (i 0) (i 1) + third gh 512 (by omega) (i 0) (i 1)) * h i

/-- Two 256 × 512 arrays as the two layers of a 256 × 2 × 512 array. -/
def stack (a b : FVec Ideal SX .f32) : FVec Ideal SH .f32 :=
  fun i => if (i 1).val = 0 then a (ix2 (i 0 : Fin 256) (i 2 : Fin 512)) else b (ix2 (i 0 : Fin 256) (i 2 : Fin 512))

/-- The first layer's new state. -/
def layer0 (x : FVec Ideal SX .f32) (hid : FVec Ideal SH .f32) (msk : IVec SM 1)
    (Wi0 Wh0 : FVec Ideal SW .f32) (bi0 bh0 : FVec Ideal SB .f32) : FVec Ideal SX .f32 :=
  cell (affine x Wi0 bi0) (affine (hreset 0 hid msk) Wh0 bh0) (hreset 0 hid msk)

/-- The second layer's new state, its input the first layer's. -/
def layer1 (x : FVec Ideal SX .f32) (hid : FVec Ideal SH .f32) (msk : IVec SM 1)
    (Wi0 Wh0 : FVec Ideal SW .f32) (bi0 bh0 : FVec Ideal SB .f32)
    (Wi1 Wh1 : FVec Ideal SW .f32) (bi1 bh1 : FVec Ideal SB .f32) : FVec Ideal SX .f32 :=
  cell (affine (layer0 x hid msk Wi0 Wh0 bi0 bh0) Wi1 bi1) (affine (hreset 1 hid msk) Wh1 bh1) (hreset 1 hid msk)

/-- The new hidden states, both layers. -/
def newHidden (x : FVec Ideal SX .f32) (hid : FVec Ideal SH .f32) (msk : IVec SM 1)
    (Wi0 Wh0 : FVec Ideal SW .f32) (bi0 bh0 : FVec Ideal SB .f32)
    (Wi1 Wh1 : FVec Ideal SW .f32) (bi1 bh1 : FVec Ideal SB .f32) : FVec Ideal SH .f32 :=
  stack (layer0 x hid msk Wi0 Wh0 bi0 bh0) (layer1 x hid msk Wi0 Wh0 bi0 bh0 Wi1 Wh1 bi1 bh1)

end Cert.Gru

end
-- ==== Proof.LibMatrixReads.lean ====
/-
  Matrices read at a row and a column, and a sum over consecutive runs.

  For arrays with two axes of literal extents: a single row broadcast down the rows reads that row; a slice at a
  row offset and a column offset reads the operand that many rows down and columns to the right; a transpose
  swaps the coordinates; a vector laid out as a single row reads the vector. And in any commutative monoid a sum
  over `a + b` consecutive terms is the sum of the first `a` plus the sum of the last `b`.
-/
import Idealize.ShloMosaic.Lib.Pipeline.Value
import Idealize.ShloMosaic.Lib.ValueIdx
import Mathlib.Algebra.BigOperators.Fin

noncomputable section

open scoped BigOperators

namespace Idealize.ShloMosaic.MatrixReads

open Idealize.ShloMosaic Idealize.ShloMosaic.ValueIdx

/-- A single row broadcast down `m` rows reads that row at every row. -/
theorem rowBroadcast_apply {α : Type} (m n : Nat) (x : (⟨2, ![1, n]⟩ : Shape).Idx → α)
    (h : (⟨2, ![1, n]⟩ : Shape).Broadcasts ⟨2, ![m, n]⟩) (p : Fin m) (j : Fin n) :
    broadcastTo ⟨2, ![m, n]⟩ x h (ix2 p j) = x (ix2 (0 : Fin 1) j) := by
  refine broadcastTo_apply x h (ix2 p j) (ix2 0 j) fun a => ?_
  match a with
  | ⟨0, _⟩ => rfl
  | ⟨1, _⟩ =>
    show j.val = if n = 1 then 0 else j.val
    have := j.isLt
    split_ifs with hn
    · omega
    · rfl

/-- A slice of columns `off … off + n' - 1` reads the operand `off` columns to the right. -/
theorem colSlice_apply {α : Type} (m n n' off : Nat) (x : (⟨2, ![m, n]⟩ : Shape).Idx → α)
    (h : (⟨2, ![m, n]⟩ : Shape).Slices ![0, off] ⟨2, ![m, n']⟩) (p : Fin m) (j : Fin n') (hj : j.val + off < n) :
    extractStridedSlice ⟨2, ![m, n']⟩ ![0, off] x h (ix2 p j) = x (ix2 p (⟨j.val + off, hj⟩ : Fin n)) := by
  refine extractStridedSlice_apply _ x h (ix2 p j) _ fun a => ?_
  match a with
  | ⟨0, _⟩ => show p.val = 0 + p.val; omega
  | ⟨1, _⟩ => show j.val + off = off + j.val; omega

/-- A slice of a matrix at row offset `o0` and column offset `o1`. -/
theorem slice2_apply {α : Type} (m n m' n' o0 o1 : Nat) (x : (⟨2, ![m, n]⟩ : Shape).Idx → α)
    (h : (⟨2, ![m, n]⟩ : Shape).Slices ![o0, o1] ⟨2, ![m', n']⟩) (p : Fin m') (j : Fin n')
    (hp : p.val + o0 < m) (hj : j.val + o1 < n) :
    extractStridedSlice ⟨2, ![m', n']⟩ ![o0, o1] x h (ix2 p j) = x (ix2 (⟨p.val + o0, hp⟩ : Fin m) (⟨j.val + o1, hj⟩ : Fin n)) := by
  refine extractStridedSlice_apply _ x h (ix2 p j) _ fun a => ?_
  match a with
  | ⟨0, _⟩ => show p.val + o0 = o0 + p.val; omega
  | ⟨1, _⟩ => show j.val + o1 = o1 + j.val; omega

/-- The transpose of a matrix. -/
theorem transpose2_apply {α : Type} (m n : Nat) (x : (⟨2, ![m, n]⟩ : Shape).Idx → α)
    (h : (⟨2, ![m, n]⟩ : Shape).Transposes [1, 0] ⟨2, ![n, m]⟩) (k : Fin n) (j : Fin m) :
    transpose ⟨2, ![n, m]⟩ [1, 0] x h (ix2 k j) = x (ix2 j k) :=
  transpose_apply [1, 0] x h (ix2 k j) (ix2 j k) (fun b => match b with
    | ⟨0, _⟩ => rfl
    | ⟨1, _⟩ => rfl)

/-- A vector laid out as a single row. -/
theorem rowOfVec_apply {α : Type} (n : Nat) (x : (⟨1, ![n]⟩ : Shape).Idx → α)
    (h : (⟨1, ![n]⟩ : Shape).ShapeCasts ⟨2, ![1, n]⟩) (j : Fin n) :
    shapeCast ⟨2, ![1, n]⟩ x h (ix2 (0 : Fin 1) j) = x (ix1 j) := by
  refine shapeCast_apply x h _ _ ?_
  rw [Shape.rowMajor_val_one, Shape.rowMajor_val_two]
  show j.val = (0 : Nat) * n + j.val
  omega

/-- A sum over `a + b` terms is the sum of the first `a` plus the sum of the last `b`. -/
theorem sum_two_runs {M : Type} [AddCommMonoid M] (a b : Nat) (f : Fin (a + b) → M) :
    ∑ k, f k = (∑ k : Fin a, f ⟨k.val, by omega⟩) + ∑ k : Fin b, f ⟨k.val + a, by omega⟩ := by
  rw [Fin.sum_univ_add]
  congr 1
  refine Finset.sum_congr rfl fun k _ => congrArg f (Fin.ext ?_)
  simp [Fin.natAdd, Nat.add_comm]

end Idealize.ShloMosaic.MatrixReads

end
-- ==== Proof.LibStackDots.lean ====
/-
  Matrix products with a transposed operand, alone and over a stack, read at a row and a column.

  A matrix product accumulated into zeros, and the host's `dot_general` over a stack of matrices, are read
  on the extended reals at one output entry as the sum over the contracted coordinate `t` of the products of the
  two operands' entries. Which axis of each operand is contracted decides where `t` sits in each operand's index:
  with the left operand transposed (`Aᵀ B`) it is the left operand's ROW, `Σₜ A[t, p] · B[t, q]`; with neither
  transposed (`A B`) `Σₜ A[p, t] · B[t, q]`; with the right operand transposed (`A Bᵀ`) it is the right
  operand's COLUMN, `Σₜ A[p, t] · B[q, t]`. Over a stack the leading coordinate `g` is carried by both operands
  and the result. In each case the accumulator (if any) contributes `0`, and the sum over the one-axis contraction
  index is re-indexed by that axis's coordinate.
-/
import Idealize.ShloMosaic.PureOps.Ideal.Laws
import Idealize.ShloMosaic.Lib.ValueIdx

noncomputable section

open scoped BigOperators

namespace Idealize.ShloMosaic.StackDots

open Idealize.ShloMosaic Idealize.ShloMosaic.ValueIdx

/-! ## One matrix product into zeros -/

/-- `Aᵀ B` for a `K × M` matrix `A` and a `K × N` matrix `B` (both contracted on their rows), into zeros, at row `p`
    and column `q`, is `Σₜ A[t, p] · B[t, q]`. -/
theorem matmul_tn_zero_apply {φ₁ φ₂ : FTy} {M K N : Nat}
    (w : DotDims.WF ⟨2, ![K, M]⟩ ⟨2, ![K, N]⟩ ⟨2, ![M, N]⟩ [0] [0] [1] [1] [] [])
    (prec : Option ContractPrecision) (A : FVec Ideal ⟨2, ![K, M]⟩ φ₁) (B : FVec Ideal ⟨2, ![K, N]⟩ φ₂) (p : Fin M) (q : Fin N) :
    FloatOps.matmul (⟨[0], [0], [1], [1], [], [], w⟩ : DotDims ⟨2, ![K, M]⟩ ⟨2, ![K, N]⟩ ⟨2, ![M, N]⟩) prec A B (constant ⟨2, ![M, N]⟩ .f32 0x00000000#32) (ix2 p q)
      = ∑ t : Fin K, A (ix2 t p) * B (ix2 t q) := by
  rw [Ideal.matmul_constant_zero_apply,
    ← Equiv.sum_comp (contrEquiv1 (⟨[0], [0], [1], [1], [], [], w⟩ : DotDims ⟨2, ![K, M]⟩ ⟨2, ![K, N]⟩ ⟨2, ![M, N]⟩) K rfl rfl).symm]
  refine Finset.sum_congr rfl fun t _ => ?_
  have c := contrEquiv1_symm_val (⟨[0], [0], [1], [1], [], [], w⟩ : DotDims ⟨2, ![K, M]⟩ ⟨2, ![K, N]⟩ ⟨2, ![M, N]⟩) K rfl rfl t
  have l : (⟨[0], [0], [1], [1], [], [], w⟩ : DotDims ⟨2, ![K, M]⟩ ⟨2, ![K, N]⟩ ⟨2, ![M, N]⟩).lhsIdx (ix2 p q)
      ((contrEquiv1 _ K rfl rfl).symm t) = ix2 t p := by
    funext ax; apply Fin.ext
    match ax with
    | ⟨0, _⟩ => simp [DotDims.lhsIdx]; exact c
    | ⟨1, _⟩ => simp [DotDims.lhsIdx]; rfl
  have r : (⟨[0], [0], [1], [1], [], [], w⟩ : DotDims ⟨2, ![K, M]⟩ ⟨2, ![K, N]⟩ ⟨2, ![M, N]⟩).rhsIdx (ix2 p q)
      ((contrEquiv1 _ K rfl rfl).symm t) = ix2 t q := by
    funext ax; apply Fin.ext
    match ax with
    | ⟨0, _⟩ => simp [DotDims.rhsIdx]; exact c
    | ⟨1, _⟩ => simp [DotDims.rhsIdx]; rfl
  rw [l, r]

/-- `A B` for an `M × K` matrix `A` and a `K × N` matrix `B` (the left operand's columns contracted with the right
    operand's rows), into zeros, at row `p` and column `q`, is `Σₜ A[p, t] · B[t, q]`. -/
theorem matmul_nn_zero_apply {φ₁ φ₂ : FTy} {M K N : Nat}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂) (p : Fin M) (q : Fin N) :
    FloatOps.matmul (⟨[1], [0], [0], [1], [], [], w⟩ : DotDims ⟨2, ![M, K]⟩ ⟨2, ![K, N]⟩ ⟨2, ![M, N]⟩) prec A B (constant ⟨2, ![M, N]⟩ .f32 0x00000000#32) (ix2 p q)
      = ∑ t : Fin K, A (ix2 p t) * B (ix2 t q) := by
  rw [Ideal.matmul_constant_zero_apply,
    ← Equiv.sum_comp (contrEquiv1 (⟨[1], [0], [0], [1], [], [], w⟩ : DotDims ⟨2, ![M, K]⟩ ⟨2, ![K, N]⟩ ⟨2, ![M, N]⟩) K rfl rfl).symm]
  refine Finset.sum_congr rfl fun t _ => ?_
  have c := contrEquiv1_symm_val (⟨[1], [0], [0], [1], [], [], w⟩ : DotDims ⟨2, ![M, K]⟩ ⟨2, ![K, N]⟩ ⟨2, ![M, N]⟩) K rfl rfl t
  have l : (⟨[1], [0], [0], [1], [], [], w⟩ : DotDims ⟨2, ![M, K]⟩ ⟨2, ![K, N]⟩ ⟨2, ![M, N]⟩).lhsIdx (ix2 p q)
      ((contrEquiv1 _ K rfl rfl).symm t) = ix2 p t := by
    funext ax; apply Fin.ext
    match ax with
    | ⟨0, _⟩ => simp [DotDims.lhsIdx]; rfl
    | ⟨1, _⟩ => simp [DotDims.lhsIdx]; exact c
  have r : (⟨[1], [0], [0], [1], [], [], w⟩ : DotDims ⟨2, ![M, K]⟩ ⟨2, ![K, N]⟩ ⟨2, ![M, N]⟩).rhsIdx (ix2 p q)
      ((contrEquiv1 _ K rfl rfl).symm t) = ix2 t q := by
    funext ax; apply Fin.ext
    match ax with
    | ⟨0, _⟩ => simp [DotDims.rhsIdx]; exact c
    | ⟨1, _⟩ => simp [DotDims.rhsIdx]; rfl
  rw [l, r]

/-- `A Bᵀ` for an `M × K` matrix `A` and an `N × K` matrix `B` (both contracted on their columns), into zeros, at row
    `p` and column `q`, is `Σₜ A[p, t] · B[q, t]`. -/
theorem matmul_nt_zero_apply {φ₁ φ₂ : FTy} {M K N : Nat}
    (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂) (p : Fin M) (q : Fin N) :
    FloatOps.matmul (⟨[1], [1], [0], [0], [], [], w⟩ : DotDims ⟨2, ![M, K]⟩ ⟨2, ![N, K]⟩ ⟨2, ![M, N]⟩) prec A B (constant ⟨2, ![M, N]⟩ .f32 0x00000000#32) (ix2 p q)
      = ∑ t : Fin K, A (ix2 p t) * B (ix2 q t) := by
  rw [Ideal.matmul_constant_zero_apply,
    ← Equiv.sum_comp (contrEquiv1 (⟨[1], [1], [0], [0], [], [], w⟩ : DotDims ⟨2, ![M, K]⟩ ⟨2, ![N, K]⟩ ⟨2, ![M, N]⟩) K rfl rfl).symm]
  refine Finset.sum_congr rfl fun t _ => ?_
  have c := contrEquiv1_symm_val (⟨[1], [1], [0], [0], [], [], w⟩ : DotDims ⟨2, ![M, K]⟩ ⟨2, ![N, K]⟩ ⟨2, ![M, N]⟩) K rfl rfl t
  have l : (⟨[1], [1], [0], [0], [], [], w⟩ : DotDims ⟨2, ![M, K]⟩ ⟨2, ![N, K]⟩ ⟨2, ![M, N]⟩).lhsIdx (ix2 p q)
      ((contrEquiv1 _ K rfl rfl).symm t) = ix2 p t := by
    funext ax; apply Fin.ext
    match ax with
    | ⟨0, _⟩ => simp [DotDims.lhsIdx]; rfl
    | ⟨1, _⟩ => simp [DotDims.lhsIdx]; exact c
  have r : (⟨[1], [1], [0], [0], [], [], w⟩ : DotDims ⟨2, ![M, K]⟩ ⟨2, ![N, K]⟩ ⟨2, ![M, N]⟩).rhsIdx (ix2 p q)
      ((contrEquiv1 _ K rfl rfl).symm t) = ix2 q t := by
    funext ax; apply Fin.ext
    match ax with
    | ⟨0, _⟩ => simp [DotDims.rhsIdx]; rfl
    | ⟨1, _⟩ => simp [DotDims.rhsIdx]; exact c
  rw [l, r]

/-! ## The product of two stacks, matrix by matrix -/

/-- `Aᵀ B` member by member, for a stack of `K × M` matrices and a stack of `K × N` matrices (batch axes 0 and 0, each
    member contracted on its rows): at member `g`, row `p` and column `q` it is `Σₜ A[g, t, p] · B[g, t, q]`. -/
theorem dotGeneral_stack_tn_apply {φ₁ φ₂ : FTy} {G M K N : Nat}
    (w : DotDims.WF ⟨3, ![G, K, M]⟩ ⟨3, ![G, K, N]⟩ ⟨3, ![G, M, N]⟩ [1] [1] [2] [2] [0] [0])
    (prec : Option ContractPrecision) (A : FVec Ideal ⟨3, ![G, K, M]⟩ φ₁) (B : FVec Ideal ⟨3, ![G, K, N]⟩ φ₂) (g : Fin G) (p : Fin M) (q : Fin N) :
    Host.dotGeneral (⟨[1], [1], [2], [2], [0], [0], w⟩ : DotDims ⟨3, ![G, K, M]⟩ ⟨3, ![G, K, N]⟩ ⟨3, ![G, M, N]⟩) prec A B (ix3 g p q)
      = ∑ t : Fin K, A (ix3 g t p) * B (ix3 g t q) := by
  show FloatOps.dotGeneral _ prec _ A B (ix3 g p q) = _
  rw [Ideal.dotGeneral_apply,
    ← Equiv.sum_comp (contrEquiv1 (⟨[1], [1], [2], [2], [0], [0], w⟩ : DotDims ⟨3, ![G, K, M]⟩ ⟨3, ![G, K, N]⟩ ⟨3, ![G, M, N]⟩) K rfl rfl).symm]
  refine Finset.sum_congr rfl fun t _ => ?_
  have c := contrEquiv1_symm_val (⟨[1], [1], [2], [2], [0], [0], w⟩ : DotDims ⟨3, ![G, K, M]⟩ ⟨3, ![G, K, N]⟩ ⟨3, ![G, M, N]⟩) K rfl rfl t
  have l : (⟨[1], [1], [2], [2], [0], [0], w⟩ : DotDims ⟨3, ![G, K, M]⟩ ⟨3, ![G, K, N]⟩ ⟨3, ![G, M, N]⟩).lhsIdx (ix3 g p q)
      ((contrEquiv1 _ K rfl rfl).symm t) = ix3 g t p := by
    funext ax; apply Fin.ext
    match ax with
    | ⟨0, _⟩ => simp [DotDims.lhsIdx]; rfl
    | ⟨1, _⟩ => simp [DotDims.lhsIdx]; exact c
    | ⟨2, _⟩ => simp [DotDims.lhsIdx]; rfl
  have r : (⟨[1], [1], [2], [2], [0], [0], w⟩ : DotDims ⟨3, ![G, K, M]⟩ ⟨3, ![G, K, N]⟩ ⟨3, ![G, M, N]⟩).rhsIdx (ix3 g p q)
      ((contrEquiv1 _ K rfl rfl).symm t) = ix3 g t q := by
    funext ax; apply Fin.ext
    match ax with
    | ⟨0, _⟩ => simp [DotDims.rhsIdx]; rfl
    | ⟨1, _⟩ => simp [DotDims.rhsIdx]; exact c
    | ⟨2, _⟩ => simp [DotDims.rhsIdx]; rfl
  rw [l, r]

/-- `A Bᵀ` member by member, for a stack of `M × K` matrices and a stack of `N × K` matrices (batch axes 0 and 0, each
    member contracted on its columns): at member `g`, row `p` and column `q` it is `Σₜ A[g, p, t] · B[g, q, t]`. -/
theorem dotGeneral_stack_nt_apply {φ₁ φ₂ : FTy} {G M K N : Nat}
    (w : DotDims.WF ⟨3, ![G, M, K]⟩ ⟨3, ![G, N, K]⟩ ⟨3, ![G, M, N]⟩ [2] [2] [1] [1] [0] [0])
    (prec : Option ContractPrecision) (A : FVec Ideal ⟨3, ![G, M, K]⟩ φ₁) (B : FVec Ideal ⟨3, ![G, N, K]⟩ φ₂) (g : Fin G) (p : Fin M) (q : Fin N) :
    Host.dotGeneral (⟨[2], [2], [1], [1], [0], [0], w⟩ : DotDims ⟨3, ![G, M, K]⟩ ⟨3, ![G, N, K]⟩ ⟨3, ![G, M, N]⟩) prec A B (ix3 g p q)
      = ∑ t : Fin K, A (ix3 g p t) * B (ix3 g q t) := by
  show FloatOps.dotGeneral _ prec _ A B (ix3 g p q) = _
  rw [Ideal.dotGeneral_apply,
    ← Equiv.sum_comp (contrEquiv1 (⟨[2], [2], [1], [1], [0], [0], w⟩ : DotDims ⟨3, ![G, M, K]⟩ ⟨3, ![G, N, K]⟩ ⟨3, ![G, M, N]⟩) K rfl rfl).symm]
  refine Finset.sum_congr rfl fun t _ => ?_
  have c := contrEquiv1_symm_val (⟨[2], [2], [1], [1], [0], [0], w⟩ : DotDims ⟨3, ![G, M, K]⟩ ⟨3, ![G, N, K]⟩ ⟨3, ![G, M, N]⟩) K rfl rfl t
  have l : (⟨[2], [2], [1], [1], [0], [0], w⟩ : DotDims ⟨3, ![G, M, K]⟩ ⟨3, ![G, N, K]⟩ ⟨3, ![G, M, N]⟩).lhsIdx (ix3 g p q)
      ((contrEquiv1 _ K rfl rfl).symm t) = ix3 g p t := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c
  have r : (⟨[2], [2], [1], [1], [0], [0], w⟩ : DotDims ⟨3, ![G, M, K]⟩ ⟨3, ![G, N, K]⟩ ⟨3, ![G, M, N]⟩).rhsIdx (ix3 g p q)
      ((contrEquiv1 _ K rfl rfl).symm t) = ix3 g q t := by
    funext ax; apply Fin.ext
    match ax with
    | ⟨0, _⟩ => simp [DotDims.rhsIdx]; rfl
    | ⟨1, _⟩ => simp [DotDims.rhsIdx]; rfl
    | ⟨2, _⟩ => simp [DotDims.rhsIdx]; exact c
  rw [l, r]

end Idealize.ShloMosaic.StackDots

end
-- ==== Proof.LibHostDot.lean ====
/-
  The host's matrix product `A B` read at a row and a column.

  For an `M × K` matrix `A` and a `K × N` matrix `B`, the host's `dot_general` contracting the left operand's
  columns with the right operand's rows is, on the extended reals, `Σₜ A[p, t] · B[t, q]` at row `p` and column
  `q`: the sum over the one-axis contraction index is re-indexed by that axis's coordinate `t`, which sits in the
  second place of the left operand's index and in the first place of the right operand's.
-/
import Idealize.ShloMosaic.PureOps.Ideal.Laws
import Idealize.ShloMosaic.Lib.ValueIdx

noncomputable section

open scoped BigOperators

namespace Idealize.ShloMosaic.HostDot

open Idealize.ShloMosaic Idealize.ShloMosaic.ValueIdx

/-- `A B` on the host, at row `p` and column `q`, is `Σₜ A[p, t] · B[t, q]`. -/
theorem dotGeneral_nn_apply {φ₁ φ₂ : FTy} {M K N : Nat}
    (w : DotDims.WF ⟨2, ![M, K]⟩ ⟨2, ![K, N]⟩ ⟨2, ![M, N]⟩ [1] [0] [0] [1] [] [])
    (prec : Option ContractPrecision) (A : FVec Ideal ⟨2, ![M, K]⟩ φ₁) (B : FVec Ideal ⟨2, ![K, N]⟩ φ₂) (p : Fin M) (q : Fin N) :
    Host.dotGeneral (⟨[1], [0], [0], [1], [], [], w⟩ : DotDims ⟨2, ![M, K]⟩ ⟨2, ![K, N]⟩ ⟨2, ![M, N]⟩) prec A B (ix2 p q)
      = ∑ t : Fin K, A (ix2 p t) * B (ix2 t q) := by
  show FloatOps.dotGeneral _ prec _ A B (ix2 p q) = _
  rw [Ideal.dotGeneral_apply,
    ← Equiv.sum_comp (contrEquiv1 (⟨[1], [0], [0], [1], [], [], w⟩ : DotDims ⟨2, ![M, K]⟩ ⟨2, ![K, N]⟩ ⟨2, ![M, N]⟩) K rfl rfl).symm]
  refine Finset.sum_congr rfl fun t _ => ?_
  have c := contrEquiv1_symm_val (⟨[1], [0], [0], [1], [], [], w⟩ : DotDims ⟨2, ![M, K]⟩ ⟨2, ![K, N]⟩ ⟨2, ![M, N]⟩) K rfl rfl t
  have l : (⟨[1], [0], [0], [1], [], [], w⟩ : DotDims ⟨2, ![M, K]⟩ ⟨2, ![K, N]⟩ ⟨2, ![M, N]⟩).lhsIdx (ix2 p q)
      ((contrEquiv1 _ K rfl rfl).symm t) = ix2 p t := by
    funext ax; apply Fin.ext
    match ax with
    | ⟨0, _⟩ => simp [DotDims.lhsIdx]; rfl
    | ⟨1, _⟩ => simp [DotDims.lhsIdx]; exact c
  have r : (⟨[1], [0], [0], [1], [], [], w⟩ : DotDims ⟨2, ![M, K]⟩ ⟨2, ![K, N]⟩ ⟨2, ![M, N]⟩).rhsIdx (ix2 p q)
      ((contrEquiv1 _ K rfl rfl).symm t) = ix2 t q := by
    funext ax; apply Fin.ext
    match ax with
    | ⟨0, _⟩ => simp [DotDims.rhsIdx]; exact c
    | ⟨1, _⟩ => simp [DotDims.rhsIdx]; rfl
  rw [l, r]

end Idealize.ShloMosaic.HostDot

end
-- ==== Proof.Forms.lean ====
/-
  The two spellings of each piece of the recurrent step, read to the index-by-index functions of the
  specification.

  A fused kernel and a host program write the same step with different operations. For each piece of the step —
  the hidden state reset by the row bit, the affine map `x Wᵀ + b`, the gate arithmetic, the two new states laid
  on the middle axis — this file states the kernel's spelling and the host's spelling over arbitrary arrays of the
  literal shapes and reads both to the specification's function:

  * reset: the kernel multiplies the layer's rows by the bit converted to a number (`h · 1 = h`, `h · 0 = 0` on
    every extended real); the host transposes the layers to the front, selects against a zero array under the
    bit broadcast over layers and columns, cuts the layer out and drops its axis;
  * affine: the kernel multiplies by the weight matrix contracted on its columns into zeros and adds the bias as a
    one-row matrix broadcast down the rows; the host multiplies by the transposed matrix and adds the bias
    broadcast along axis 1;
  * gates: the kernel's logistic is the host's `1 / (1 + e^(−v))` spelt out, the literal `1.0` being the real one;
  * layout: the kernel stores each layer's state into its own slab of the result; the host stacks them in front
    and transposes the stack's axis to the middle.
-/
import proofs.«178600_g23510650978938_cont_8to1_1664_2_alg».proof.Proof.Spec
import proofs.«178600_g23510650978938_cont_8to1_1664_2_alg».proof.Proof.LibMatrixReads
import proofs.«178600_g23510650978938_cont_8to1_1664_2_alg».proof.Proof.LibStackDots
import proofs.«178600_g23510650978938_cont_8to1_1664_2_alg».proof.Proof.LibHostDot
import Idealize.ShloMosaic.Lib.Pipeline.Value
import Idealize.ShloMosaic.Lib.ValueLayout
import Idealize.ShloMosaic.Lib.IdealHost
import Idealize.ShloMosaic.Lib.KernelVsHost
import Idealize.ShloMosaic.PureOps.Ideal.Laws

noncomputable section

open scoped BigOperators

namespace Cert.Gru

open Idealize.ShloMosaic Idealize.ShloMosaic.ValueIdx

abbrev S1R : Shape := ⟨2, ![1, 1536]⟩
abbrev SH1 : Shape := ⟨3, ![256, 1, 512]⟩
abbrev ST : Shape := ⟨3, ![2, 256, 512]⟩
abbrev ST1 : Shape := ⟨3, ![1, 256, 512]⟩
abbrev SWT : Shape := ⟨2, ![512, 1536]⟩
abbrev SM3 : Shape := ⟨3, ![1, 256, 1]⟩
abbrev S0 : Shape := ⟨0, ![]⟩

/-! ## The gate arithmetic -/

theorem logistic_apply (v : FVec Ideal SX .f32) (i : SX.Idx) : logistic v i = Ideal.logistic (v i) := rfl
theorem tanh_apply (v : FVec Ideal SX .f32) (i : SX.Idx) : tanh v i = Ideal.tanh (v i) := rfl

/-- The three thirds of a pre-activation as slices of its columns. -/
theorem third_slice (g : FVec Ideal SG .f32) (off : Nat) (hoff : off + 512 ≤ 1536) (hs : SG.Slices ![0, off] SX)
    (p : Fin 256) (j : Fin 512) :
    extractStridedSlice SX ![0, off] g hs (ix2 p j) = third g off hoff p j :=
  MatrixReads.colSlice_apply 256 1536 512 off g hs p j (by have := j.isLt; omega)

/-- The kernel's gate arithmetic over the two pre-activations is the specification's cell. -/
theorem cell_kernel (h0 : SG.Slices ![0, 0] SX) (h1 : SG.Slices ![0, 512] SX) (h2 : SG.Slices ![0, 1024] SX)
    (gi gh : FVec Ideal SG .f32) (h : FVec Ideal SX .f32) :
    addf (mulf (subf (broadcast SX (Scalar.ofBits .f32 0x3F800000#32))
                 (logistic (addf (extractStridedSlice SX ![0, 512] gi h1) (extractStridedSlice SX ![0, 512] gh h1))))
               (tanh (addf (extractStridedSlice SX ![0, 1024] gi h2)
                 (mulf (logistic (addf (extractStridedSlice SX ![0, 0] gi h0) (extractStridedSlice SX ![0, 0] gh h0)))
                   (extractStridedSlice SX ![0, 1024] gh h2)))))
         (mulf (logistic (addf (extractStridedSlice SX ![0, 512] gi h1) (extractStridedSlice SX ![0, 512] gh h1))) h)
      = cell gi gh h := by
  funext i
  obtain ⟨p, j, rfl⟩ : ∃ (p : Fin 256) (j : Fin 512), i = ix2 p j := ⟨i 0, i 1, eq_ix2 i⟩
  have hone : (Scalar.ofBits .f32 0x3F800000#32 : Ideal .f32) = (1 : EReal) := Ideal.ofBits_one_f32
  simp only [addf_apply, mulf_apply, subf_apply, broadcast_apply, logistic_apply, tanh_apply, hone,
    third_slice _ 0 (by omega) h0, third_slice _ 512 (by omega) h1, third_slice _ 1024 (by omega) h2]
  rfl

/-- The host's literal one, broadcast. -/
abbrev hostOne (hbc : S0.BroadcastsInDim SX ![]) : FVec Ideal SX .f32 :=
  broadcastInDim SX ![] hbc (constant S0 .f32 0x3F800000#32)

/-- The host's logistic, spelt `1 / (1 + e^(−v))`. -/
abbrev hostSigmoid (hbc : S0.BroadcastsInDim SX ![]) (v : FVec Ideal SX .f32) : FVec Ideal SX .f32 :=
  Host.divf (hostOne hbc) (addf (hostOne hbc) (Host.exp (Host.negf v)))

theorem hostOne_apply (hbc : S0.BroadcastsInDim SX ![]) (i : SX.Idx) : hostOne hbc i = (1 : EReal) :=
  Ideal.ofBits_one_f32

theorem hostSigmoid_apply (hbc : S0.BroadcastsInDim SX ![]) (v : FVec Ideal SX .f32) (i : SX.Idx) :
    hostSigmoid hbc v i = Ideal.logistic (v i) := by
  show Ideal.div (Ideal.ofBits .f32 0x3F800000#32) (Ideal.ofBits .f32 0x3F800000#32 + Ideal.exp (-(v i)))
    = Ideal.div 1 (1 + Ideal.exp (-(v i)))
  rw [Ideal.ofBits_one_f32]

theorem hostTanh_apply (v : FVec Ideal SX .f32) (i : SX.Idx) : Host.tanh v i = Ideal.tanh (v i) := rfl

/-- The host's gate arithmetic over the two pre-activations is the specification's cell. -/
theorem cell_host (hbc : S0.BroadcastsInDim SX ![])
    (h0 : SG.Slices ![0, 0] SX) (h1 : SG.Slices ![0, 512] SX) (h2 : SG.Slices ![0, 1024] SX)
    (gi gh : FVec Ideal SG .f32) (h : FVec Ideal SX .f32) :
    addf (mulf (subf (hostOne hbc)
                 (hostSigmoid hbc (addf (extractStridedSlice SX ![0, 512] gi h1) (extractStridedSlice SX ![0, 512] gh h1))))
               (Host.tanh (addf (extractStridedSlice SX ![0, 1024] gi h2)
                 (mulf (hostSigmoid hbc (addf (extractStridedSlice SX ![0, 0] gi h0) (extractStridedSlice SX ![0, 0] gh h0)))
                   (extractStridedSlice SX ![0, 1024] gh h2)))))
         (mulf (hostSigmoid hbc (addf (extractStridedSlice SX ![0, 512] gi h1) (extractStridedSlice SX ![0, 512] gh h1))) h)
      = cell gi gh h := by
  funext i
  obtain ⟨p, j, rfl⟩ : ∃ (p : Fin 256) (j : Fin 512), i = ix2 p j := ⟨i 0, i 1, eq_ix2 i⟩
  simp only [addf_apply, mulf_apply, subf_apply, hostSigmoid_apply, hostOne_apply, hostTanh_apply,
    third_slice _ 0 (by omega) h0, third_slice _ 512 (by omega) h1, third_slice _ 1024 (by omega) h2]
  rfl

/-! ## The affine map -/

/-- The kernel's `x Wᵀ` into zeros plus the bias row broadcast down the rows. -/
theorem affine_kernel (w : DotDims.WF SX SW SG [1] [1] [0] [0] [] []) (hc : S1R.ShapeCasts S1R) (hb : S1R.Broadcasts SG)
    (hr : SB.ShapeCasts S1R) (x : FVec Ideal SX .f32) (W : FVec Ideal SW .f32) (b : FVec Ideal SB .f32)
    (brow : FVec Ideal S1R .f32) (hrow : brow = shapeCast S1R b hr) :
    addf (matmul (⟨[1], [1], [0], [0], [], [], w⟩ : DotDims SX SW SG) none x W (constant SG .f32 0x00000000#32))
        (broadcastTo SG (shapeCast S1R brow hc) hb) = affine x W b := by
  subst hrow
  funext i
  obtain ⟨p, q, rfl⟩ : ∃ (p : Fin 256) (q : Fin 1536), i = ix2 p q := ⟨i 0, i 1, eq_ix2 i⟩
  rw [shapeCast_self]
  show FloatOps.matmul _ none x W (constant SG .f32 0x00000000#32) (ix2 p q)
      + broadcastTo SG (shapeCast S1R b hr) hb (ix2 p q) = _
  rw [StackDots.matmul_nt_zero_apply, MatrixReads.rowBroadcast_apply, MatrixReads.rowOfVec_apply]
  rfl

/-- The host's `x (Wᵀ)` plus the bias broadcast to one row and then down the rows. -/
theorem affine_host (w : DotDims.WF SX SWT SG [1] [0] [0] [1] [] []) (ht : SW.Transposes [1, 0] SWT)
    (hb1 : SB.BroadcastsInDim S1R ![1]) (hb2 : S1R.BroadcastsInDim SG ![0, 1])
    (x : FVec Ideal SX .f32) (W : FVec Ideal SW .f32) (b : FVec Ideal SB .f32) :
    addf (Host.dotGeneral (⟨[1], [0], [0], [1], [], [], w⟩ : DotDims SX SWT SG) none x (transpose SWT [1, 0] W ht))
        (broadcastInDim SG ![0, 1] hb2 (broadcastInDim S1R ![1] hb1 b)) = affine x W b := by
  funext i
  obtain ⟨p, q, rfl⟩ : ∃ (p : Fin 256) (q : Fin 1536), i = ix2 p q := ⟨i 0, i 1, eq_ix2 i⟩
  show Host.dotGeneral _ none x (transpose SWT [1, 0] W ht) (ix2 p q)
      + broadcastInDim SG ![0, 1] hb2 (broadcastInDim S1R ![1] hb1 b) (ix2 p q) = _
  have eb : broadcastInDim S1R ![1] hb1 b (ix2 (0 : Fin 1) q) = b (ix1 q) :=
    broadcastInDim_apply ![1] hb1 b _ (ix1 q) (fun a => match a with
      | ⟨0, _⟩ => by show q.val = if (1536 : Nat) = 1 then 0 else q.val; rw [if_neg (by decide)])
  have et : ∀ k : Fin 512, transpose SWT [1, 0] W ht (ix2 k q) = W (ix2 q k) := fun k =>
    MatrixReads.transpose2_apply 1536 512 W ht k q
  rw [HostDot.dotGeneral_nn_apply, broadcastInDim_oneRow_apply, eb]
  simp only [et]
  rfl

/-! ## The hidden state reset by the row bit -/

/-- A number times the bit read as a number is the selection between the number and zero. -/
theorem mul_bit (b : BitVec 1) (v : EReal) : v * ((b.toNat : ℝ) : EReal) = Scalar.select b v 0 := by
  by_cases hb : b = 1#1
  · subst hb
    rw [select_one]
    show v * (((1 : ℕ) : ℝ) : EReal) = v
    rw [Nat.cast_one, EReal.coe_one, mul_one]
  · rw [eq_zero_of_ne_one hb, select_zero]
    show v * (((0 : ℕ) : ℝ) : EReal) = 0
    rw [Nat.cast_zero, EReal.coe_zero, mul_zero]

/-- The kernel's reset: layer `o`'s slab of the hidden states, its middle axis dropped, times the bit column
    broadcast along the rows. -/
theorem hreset_kernel (o : Nat) (ho : o < 2) (inb : ∀ a, (![0, o, 0] : Fin 3 → Nat) a + SH1.size a ≤ SH.size a)
    (hc3 : SH1.ShapeCasts SX) (hcm : SM.ShapeCasts SM) (hbm : SM.Broadcasts SX)
    (hid : Vec Ideal SH .f32) (msk : IVec SM 1) :
    mulf (shapeCast SX (View.ld (Val := Elt Ideal) hid (Rect.unit (s := SH) ![0, o, 0] SH1.size inb)) hc3)
        (broadcastTo SX (shapeCast SM (uitofp (F := Ideal) .f32 msk) hcm) hbm) = hreset ⟨o, ho⟩ hid msk := by
  funext i
  obtain ⟨p, j, rfl⟩ : ∃ (p : Fin 256) (j : Fin 512), i = ix2 p j := ⟨i 0, i 1, eq_ix2 i⟩
  rw [shapeCast_self]
  have e1 : shapeCast SX (View.ld (Val := Elt Ideal) hid (Rect.unit (s := SH) ![0, o, 0] SH1.size inb)) hc3 (ix2 p j)
      = hid (ix3 p (⟨o, ho⟩ : Fin 2) j) := by
    refine (shapeCast_apply _ hc3 (ix2 p j) (ix3 p (0 : Fin 1) j) ?_).trans ?_
    · rw [Shape.rowMajor_val_three, Shape.rowMajor_val_two]
      show (p.val * 1 + 0) * 512 + j.val = p.val * 512 + j.val
      omega
    · show hid ((Rect.unit (s := SH) ![0, o, 0] SH1.size inb).idx (ix3 p (0 : Fin 1) j)) = _
      refine congrArg hid (funext fun a => Fin.ext ?_)
      match a with
      | ⟨0, _⟩ => show 0 + 1 * p.val = p.val; omega
      | ⟨1, _⟩ => show o + 1 * 0 = o; omega
      | ⟨2, _⟩ => show 0 + 1 * j.val = j.val; omega
  have e2 : broadcastTo SX (uitofp (F := Ideal) .f32 msk) hbm (ix2 p j) = (((msk (ix2 p (0 : Fin 1))).toNat : ℝ) : EReal) := by
    refine (broadcastTo_apply _ hbm (ix2 p j) (ix2 p (0 : Fin 1)) ?_).trans rfl
    intro a
    match a with
    | ⟨0, _⟩ => show p.val = if (256 : Nat) = 1 then 0 else p.val; rw [if_neg (by decide)]
    | ⟨1, _⟩ => show 0 = if (1 : Nat) = 1 then 0 else j.val; rw [if_pos rfl]
  show shapeCast SX (View.ld (Val := Elt Ideal) hid (Rect.unit (s := SH) ![0, o, 0] SH1.size inb)) hc3 (ix2 p j)
      * broadcastTo SX (uitofp (F := Ideal) .f32 msk) hbm (ix2 p j) = _
  rw [e1, e2, mul_bit]
  rfl

/-- The host's reset: the layers transposed to the front, selected against zeros under the bit broadcast over
    layers and columns, layer `o` cut out and its axis dropped. -/
theorem hreset_host (o : Nat) (ho : o < 2) (ht : SH.Transposes [1, 0, 2] ST) (hcm : SM.ShapeCasts SM3)
    (hbm : SM3.BroadcastsInDim ST ![0, 1, 2]) (hbz : S0.BroadcastsInDim ST ![]) (hs : ST.Slices ![o, 0, 0] ST1)
    (hc : ST1.ShapeCasts SX) (hid : FVec Ideal SH .f32) (msk : IVec SM 1) :
    shapeCast SX (extractStridedSlice ST1 ![o, 0, 0]
        (select (broadcastInDim ST ![0, 1, 2] hbm (shapeCast SM3 msk hcm)) (transpose ST [1, 0, 2] hid ht)
          (broadcastInDim ST ![] hbz (constant (F := Ideal) S0 .f32 0x00000000#32))) hs) hc
      = hreset ⟨o, ho⟩ hid msk := by
  funext i
  obtain ⟨p, j, rfl⟩ : ∃ (p : Fin 256) (j : Fin 512), i = ix2 p j := ⟨i 0, i 1, eq_ix2 i⟩
  rw [shapeCast_1ab_ab_apply]
  rw [extractStridedSlice_apply ![o, 0, 0] _ hs (ix3 (0 : Fin 1) p j) (ix3 (⟨o, ho⟩ : Fin 2) p j) (fun a => by
    match a with
    | ⟨0, _⟩ => show o = o + 0; omega
    | ⟨1, _⟩ => show p.val = 0 + p.val; omega
    | ⟨2, _⟩ => show j.val = 0 + j.val; omega)]
  rw [select_apply]
  have em : broadcastInDim ST ![0, 1, 2] hbm (shapeCast SM3 msk hcm) (ix3 (⟨o, ho⟩ : Fin 2) p j) = msk (ix2 p (0 : Fin 1)) := by
    refine (broadcastInDim_apply ![0, 1, 2] hbm _ _ (ix3 (0 : Fin 1) p (0 : Fin 1)) (fun a => ?_)).trans ?_
    · match a with
      | ⟨0, _⟩ => show 0 = if (1 : Nat) = 1 then 0 else o; rw [if_pos rfl]
      | ⟨1, _⟩ => show p.val = if (256 : Nat) = 1 then 0 else p.val; rw [if_neg (by decide)]
      | ⟨2, _⟩ => show 0 = if (1 : Nat) = 1 then 0 else j.val; rw [if_pos rfl]
    · refine shapeCast_apply msk hcm _ (ix2 p (0 : Fin 1)) ?_
      rw [Shape.rowMajor_val_two, Shape.rowMajor_val_three]
      show p.val * 1 + 0 = (0 * 256 + p.val) * 1 + 0
      omega
  have eh : transpose ST [1, 0, 2] hid ht (ix3 (⟨o, ho⟩ : Fin 2) p j) = hid (ix3 p (⟨o, ho⟩ : Fin 2) j) :=
    transpose_apply [1, 0, 2] hid ht _ (ix3 p (⟨o, ho⟩ : Fin 2) j) (fun b => match b with
      | ⟨0, _⟩ => rfl
      | ⟨1, _⟩ => rfl
      | ⟨2, _⟩ => rfl)
  have ez : broadcastInDim ST ![] hbz (constant (F := Ideal) S0 .f32 0x00000000#32) (ix3 (⟨o, ho⟩ : Fin 2) p j) = (0 : EReal) :=
    Ideal.ofBits_zero_f32
  rw [em, eh, ez]
  rfl

/-! ## The two new states on the middle axis -/

/-- The kernel's two slab stores, the second layer's last, leave the stack. -/
theorem stack_kernel (inb0 : ∀ a, (![0, 0, 0] : Fin 3 → Nat) a + SH1.size a ≤ SH.size a)
    (inb1 : ∀ a, (![0, 1, 0] : Fin 3 → Nat) a + SH1.size a ≤ SH.size a) (hc : SX.ShapeCasts SH1)
    (a b : FVec Ideal SX .f32)
    (hcov : ∀ y : SH.Idx, ∃ pc ∈ ([⟨Rect.unit (s := SH) ![0, 1, 0] SH1.size inb1, shapeCast SH1 b hc⟩,
        ⟨Rect.unit (s := SH) ![0, 0, 0] SH1.size inb0, shapeCast SH1 a hc⟩] : List (View.Piece (Elt Ideal) SH .f32)), y ∈ pc.1.set) :
    View.canon ([⟨Rect.unit (s := SH) ![0, 1, 0] SH1.size inb1, shapeCast SH1 b hc⟩,
        ⟨Rect.unit (s := SH) ![0, 0, 0] SH1.size inb0, shapeCast SH1 a hc⟩] : List (View.Piece (Elt Ideal) SH .f32))
      = stack a b := by
  have hsc : ∀ (v : FVec Ideal SX .f32) (p : Fin 256) (u : Fin 1) (j : Fin 512),
      shapeCast SH1 v hc (ix3 p u j) = v (ix2 p j) := fun v p u j =>
    shapeCast_apply v hc _ _ (by
      have hu : u.val = 0 := by omega
      rw [Shape.rowMajor_val_two, Shape.rowMajor_val_three]
      show p.val * 512 + j.val = (p.val * 1 + u.val) * 512 + j.val
      rw [hu]; omega)
  funext y
  refine View.canon_apply_of_pieces (stack a b) _ (fun pc hpc x => ?_) y (hcov y)
  simp only [List.mem_cons, List.mem_singleton, List.not_mem_nil, or_false] at hpc
  rcases hpc with rfl | rfl
  · obtain ⟨p, u, j, rfl⟩ : ∃ (p : Fin 256) (u : Fin 1) (j : Fin 512), x = ix3 p u j := ⟨x 0, x 1, x 2, eq_ix3 x⟩
    have hu : u.val = 0 := by omega
    show shapeCast SH1 b hc (ix3 p u j) = stack a b ((Rect.unit (s := SH) ![0, 1, 0] SH1.size inb1).emb (ix3 p u j))
    rw [hsc]
    unfold stack
    rw [if_neg (by show ¬(1 + 1 * u.val = 0); omega)]
    refine congrArg b (funext fun c => Fin.ext ?_)
    match c with
    | ⟨0, _⟩ => show p.val = 0 + 1 * p.val; omega
    | ⟨1, _⟩ => show j.val = 0 + 1 * j.val; omega
  · obtain ⟨p, u, j, rfl⟩ : ∃ (p : Fin 256) (u : Fin 1) (j : Fin 512), x = ix3 p u j := ⟨x 0, x 1, x 2, eq_ix3 x⟩
    have hu : u.val = 0 := by omega
    show shapeCast SH1 a hc (ix3 p u j) = stack a b ((Rect.unit (s := SH) ![0, 0, 0] SH1.size inb0).emb (ix3 p u j))
    rw [hsc]
    unfold stack
    rw [if_pos (by show 0 + 1 * u.val = 0; omega)]
    refine congrArg a (funext fun c => Fin.ext ?_)
    match c with
    | ⟨0, _⟩ => show p.val = 0 + 1 * p.val; omega
    | ⟨1, _⟩ => show j.val = 0 + 1 * j.val; omega

/-- The host's stack: each state given a leading unit axis, the two joined on it, and that axis moved to the
    middle. -/
theorem stack_host (hb : SX.BroadcastsInDim ST1 ![1, 2]) (hcat : Shape.Concatenates [ST1, ST1] ST 0)
    (ht : ST.Transposes [1, 0, 2] SH) (a b : FVec Ideal SX .f32) :
    transpose SH [1, 0, 2] (concatenate ST 0 [⟨ST1, broadcastInDim ST1 ![1, 2] hb a⟩, ⟨ST1, broadcastInDim ST1 ![1, 2] hb b⟩] hcat) ht
      = stack a b := by
  have hbc : ∀ (v : FVec Ideal SX .f32) (p : Fin 256) (j : Fin 512),
      broadcastInDim ST1 ![1, 2] hb v (ix3 (0 : Fin 1) p j) = v (ix2 p j) := fun v p j =>
    broadcastInDim_apply _ hb v _ (ix2 p j) (fun c => match c with
      | ⟨0, _⟩ => by show p.val = if (256 : Nat) = 1 then 0 else p.val; rw [if_neg (by decide)]
      | ⟨1, _⟩ => by show j.val = if (512 : Nat) = 1 then 0 else j.val; rw [if_neg (by decide)])
  funext y
  obtain ⟨p, l, j, rfl⟩ : ∃ (p : Fin 256) (l : Fin 2) (j : Fin 512), y = ix3 p l j := ⟨y 0, y 1, y 2, eq_ix3 y⟩
  rw [transpose_apply [1, 0, 2] _ ht (ix3 p l j) (ix3 l p j) (fun c => match c with
    | ⟨0, _⟩ => rfl
    | ⟨1, _⟩ => rfl
    | ⟨2, _⟩ => rfl)]
  unfold stack
  by_cases hl : l.val = 0
  · rw [if_pos (by show l.val = 0; exact hl)]
    rw [concatenate_pair_apply_left (t := ST) (s₁ := ST1) (s₂ := ST1) (0 : Fin 3) _ _ hcat (ix3 l p j) rfl (ix3 (0 : Fin 1) p j) (fun c => by
      match c with
      | ⟨0, _⟩ => show 0 = l.val; omega
      | ⟨1, _⟩ => rfl
      | ⟨2, _⟩ => rfl)]
    exact hbc a p j
  · rw [if_neg (by show ¬(l.val = 0); exact hl)]
    have hl1 : l.val = 1 := by have := l.isLt; omega
    rw [concatenate_pair_apply_right (t := ST) (s₁ := ST1) (s₂ := ST1) (0 : Fin 3) _ _ hcat (ix3 l p j) rfl rfl (ix3 (0 : Fin 1) p j) (fun c hc => by
      match c with
      | ⟨0, _⟩ => exact absurd rfl hc
      | ⟨1, _⟩ => rfl
      | ⟨2, _⟩ => rfl) (by show 0 + 1 = l.val; omega)]
    exact hbc b p j

end Cert.Gru

end
-- ==== Proof.KernelValue.lean ====
/-
  The fused kernel's two results as the specification's functions of the argument arrays.

  The kernel has no grid: its one point fetches every operand whole, so each window's block is its array. Before
  the region the host converts the row bits to numbers and lays each bias vector out as one row. The body's stores
  are read from the generated frame: the first result's buffer holds the second layer's new state, the second's
  holds the two layers' states in their slabs. Each is first written as a function of the body's loads (the gate
  arithmetic over the two affine maps of each layer), then the loads are identified with the argument arrays, and
  the one block covers each result array.
-/
import proofs.«178600_g23510650978938_cont_8to1_1664_2_alg».proof.Proof.Gen.KernelIdeal.Value
import proofs.«178600_g23510650978938_cont_8to1_1664_2_alg».proof.Proof.Forms
import Idealize.ShloMosaic.Lib.StableHlo.Run

set_option maxRecDepth 16384

noncomputable section

namespace Cert.KernelIdeal.GruValue

open Cert.KernelIdeal Cert.KernelIdeal.Gen Idealize.ShloMosaic Idealize.ShloMosaic.TcCoe Idealize.SL.Sem
open Idealize.ShloMosaic.StableHlo
open Idealize.ShloMosaic.Pipeline (Dat)
open Cert.Gru

variable (m : (ℓ : Loc nD τ sig) → Buf (Elt Ideal) ℓ) (ρ : Dev nD → PrngReg)

/-! ## The body's stores as functions of its loads -/

theorem hz2 : (![0, 0] : Fin 2 → Nat) = fun _ => 0 := funext fun a => by fin_cases a <;> rfl

/-- The first layer's new state, from the blocks the body loads: the bit column `mf` already converted, each bias
    already a row. -/
theorem body_layer0 (x : Vec Ideal S256x512 .f32) (hid : Vec Ideal S256x2x512 .f32) (msk : IVec S256x1 1)
    (Wi0 Wh0 : Vec Ideal S1536x512 .f32) (bi0 bh0 : FVec Ideal S1536 .f32) :
    k0_pay8 (k0_pay2 (uitofp (F := Ideal) .f32 msk) (View.ld hid r0_2))
        (k0_pay6 x (uitofp (F := Ideal) .f32 msk) (View.ld hid r0_2) (shapeCast S1x1536 bi0 shapeCasts_S1536_S1x1536)
          (shapeCast S1x1536 bh0 shapeCasts_S1536_S1x1536) Wi0 Wh0)
        (k0_pay7 x (uitofp (F := Ideal) .f32 msk) (View.ld hid r0_2) (shapeCast S1x1536 bi0 shapeCasts_S1536_S1x1536)
          (shapeCast S1x1536 bh0 shapeCasts_S1536_S1x1536) Wi0 Wh0)
      = layer0 x hid msk Wi0 Wh0 bi0 bh0 := by
  have hr : k0_pay2 (uitofp (F := Ideal) .f32 msk) (View.ld hid r0_2) = hreset 0 hid msk :=
    hreset_kernel 0 (by omega) _ _ _ _ hid msk
  have gi : k0_pay4 x (shapeCast S1x1536 bi0 shapeCasts_S1536_S1x1536) Wi0 = affine x Wi0 bi0 :=
    affine_kernel _ _ _ _ x Wi0 bi0 _ rfl
  have gh : k0_pay5 (uitofp (F := Ideal) .f32 msk) (View.ld hid r0_2) (shapeCast S1x1536 bh0 shapeCasts_S1536_S1x1536) Wh0
      = affine (hreset 0 hid msk) Wh0 bh0 := by
    rw [← hr]
    exact affine_kernel _ _ _ _ _ Wh0 bh0 _ rfl
  refine (cell_kernel slices_S256x1536_o0_0_S256x512 slices_S256x1536_o0_512_S256x512 slices_S256x1536_o0_1024_S256x512
    (k0_pay4 x (shapeCast S1x1536 bi0 shapeCasts_S1536_S1x1536) Wi0)
    (k0_pay5 (uitofp (F := Ideal) .f32 msk) (View.ld hid r0_2) (shapeCast S1x1536 bh0 shapeCasts_S1536_S1x1536) Wh0)
    (k0_pay2 (uitofp (F := Ideal) .f32 msk) (View.ld hid r0_2))).trans ?_
  rw [gi, gh, hr]
  rfl

/-- The second layer's new state, from the first layer's and the blocks the body loads. -/
theorem body_layer1 (h0n : FVec Ideal S256x512 .f32) (hid : Vec Ideal S256x2x512 .f32) (msk : IVec S256x1 1)
    (z0 n0 : FVec Ideal S256x512 .f32) (hh : k0_pay8 (k0_pay2 (uitofp (F := Ideal) .f32 msk) (View.ld hid r0_2)) z0 n0 = h0n)
    (Wi1 Wh1 : Vec Ideal S1536x512 .f32) (bi1 bh1 : FVec Ideal S1536 .f32) :
    k0_pay9 (k0_pay2 (uitofp (F := Ideal) .f32 msk) (View.ld hid r0_2)) (k0_pay3 (uitofp (F := Ideal) .f32 msk) (View.ld hid r0_3)) z0 n0
        (shapeCast S1x1536 bi1 shapeCasts_S1536_S1x1536) (shapeCast S1x1536 bh1 shapeCasts_S1536_S1x1536) Wi1 Wh1
      = cell (affine h0n Wi1 bi1) (affine (hreset 1 hid msk) Wh1 bh1) (hreset 1 hid msk) := by
  have hr : k0_pay3 (uitofp (F := Ideal) .f32 msk) (View.ld hid r0_3) = hreset 1 hid msk :=
    hreset_kernel 1 (by omega) _ _ _ _ hid msk
  have gi : k0_pay4 (k0_pay8 (k0_pay2 (uitofp (F := Ideal) .f32 msk) (View.ld hid r0_2)) z0 n0)
      (shapeCast S1x1536 bi1 shapeCasts_S1536_S1x1536) Wi1 = affine h0n Wi1 bi1 := by
    rw [hh]
    exact affine_kernel _ _ _ _ h0n Wi1 bi1 _ rfl
  have gh : k0_pay4 (k0_pay3 (uitofp (F := Ideal) .f32 msk) (View.ld hid r0_3)) (shapeCast S1x1536 bh1 shapeCasts_S1536_S1x1536) Wh1
      = affine (hreset 1 hid msk) Wh1 bh1 := by
    rw [hr]
    exact affine_kernel _ _ _ _ _ Wh1 bh1 _ rfl
  refine Eq.trans ?_ ((cell_kernel slices_S256x1536_o0_0_S256x512 slices_S256x1536_o0_512_S256x512 slices_S256x1536_o0_1024_S256x512
    (k0_pay4 (k0_pay8 (k0_pay2 (uitofp (F := Ideal) .f32 msk) (View.ld hid r0_2)) z0 n0) (shapeCast S1x1536 bi1 shapeCasts_S1536_S1x1536) Wi1)
    (k0_pay4 (k0_pay3 (uitofp (F := Ideal) .f32 msk) (View.ld hid r0_3)) (shapeCast S1x1536 bh1 shapeCasts_S1536_S1x1536) Wh1)
    (k0_pay3 (uitofp (F := Ideal) .f32 msk) (View.ld hid r0_3))).trans ?_)
  · unfold k0_pay9 k0_pay4
    rfl
  · rw [gi, gh, hr]

/-- The second layer's new state from the blocks the body loads. -/
theorem body_layer1' (x : Vec Ideal S256x512 .f32) (hid : Vec Ideal S256x2x512 .f32) (msk : IVec S256x1 1)
    (Wi0 Wh0 : Vec Ideal S1536x512 .f32) (bi0 bh0 : FVec Ideal S1536 .f32)
    (Wi1 Wh1 : Vec Ideal S1536x512 .f32) (bi1 bh1 : FVec Ideal S1536 .f32) :
    k0_pay9 (k0_pay2 (uitofp (F := Ideal) .f32 msk) (View.ld hid r0_2)) (k0_pay3 (uitofp (F := Ideal) .f32 msk) (View.ld hid r0_3))
        (k0_pay6 x (uitofp (F := Ideal) .f32 msk) (View.ld hid r0_2) (shapeCast S1x1536 bi0 shapeCasts_S1536_S1x1536)
          (shapeCast S1x1536 bh0 shapeCasts_S1536_S1x1536) Wi0 Wh0)
        (k0_pay7 x (uitofp (F := Ideal) .f32 msk) (View.ld hid r0_2) (shapeCast S1x1536 bi0 shapeCasts_S1536_S1x1536)
          (shapeCast S1x1536 bh0 shapeCasts_S1536_S1x1536) Wi0 Wh0)
        (shapeCast S1x1536 bi1 shapeCasts_S1536_S1x1536) (shapeCast S1x1536 bh1 shapeCasts_S1536_S1x1536) Wi1 Wh1
      = layer1 x hid msk Wi0 Wh0 bi0 bh0 Wi1 Wh1 bi1 bh1 :=
  body_layer1 (layer0 x hid msk Wi0 Wh0 bi0 bh0) hid msk _ _ (body_layer0 x hid msk Wi0 Wh0 bi0 bh0) Wi1 Wh1 bi1 bh1

/-! ## The result buffers after the body -/

/-- The first result's buffer holds the second layer's new state. -/
theorem out11_eq (x : Vec Ideal S256x512 .f32) (hid : Vec Ideal S256x2x512 .f32) (msk : IVec S256x1 1)
    (Wi0 Wh0 : Vec Ideal S1536x512 .f32) (bi0 bh0 : FVec Ideal S1536 .f32)
    (Wi1 Wh1 : Vec Ideal S1536x512 .f32) (bi1 bh1 : FVec Ideal S1536 .f32) :
    out0_11 x hid (uitofp (F := Ideal) .f32 msk) Wi0 Wh0 (shapeCast S1x1536 bi0 shapeCasts_S1536_S1x1536)
        (shapeCast S1x1536 bh0 shapeCasts_S1536_S1x1536) Wi1 Wh1 (shapeCast S1x1536 bi1 shapeCasts_S1536_S1x1536)
        (shapeCast S1x1536 bh1 shapeCasts_S1536_S1x1536)
      = layer1 x hid msk Wi0 Wh0 bi0 bh0 Wi1 Wh1 bi1 bh1 := by
  unfold out0_11
  rw [View.canon_unit_zero hz2]
  simp only [View.ld_unit_zero (S := S256x512) hz2, View.ld_unit_zero (S := S256x1) hz2,
    View.ld_unit_zero (S := S1x1536) hz2, View.ld_unit_zero (S := S1536x512) hz2]
  exact body_layer1' x hid msk Wi0 Wh0 bi0 bh0 Wi1 Wh1 bi1 bh1

/-- The second result's buffer holds both layers' new states, each in its slab. -/
theorem out12_eq (x : Vec Ideal S256x512 .f32) (hid : Vec Ideal S256x2x512 .f32) (msk : IVec S256x1 1)
    (Wi0 Wh0 : Vec Ideal S1536x512 .f32) (bi0 bh0 : FVec Ideal S1536 .f32)
    (Wi1 Wh1 : Vec Ideal S1536x512 .f32) (bi1 bh1 : FVec Ideal S1536 .f32) :
    out0_12 x hid (uitofp (F := Ideal) .f32 msk) Wi0 Wh0 (shapeCast S1x1536 bi0 shapeCasts_S1536_S1x1536)
        (shapeCast S1x1536 bh0 shapeCasts_S1536_S1x1536) Wi1 Wh1 (shapeCast S1x1536 bi1 shapeCasts_S1536_S1x1536)
        (shapeCast S1x1536 bh1 shapeCasts_S1536_S1x1536)
      = newHidden x hid msk Wi0 Wh0 bi0 bh0 Wi1 Wh1 bi1 bh1 := by
  unfold out0_12
  simp only [View.ld_unit_zero (S := S256x512) hz2, View.ld_unit_zero (S := S256x1) hz2,
    View.ld_unit_zero (S := S1x1536) hz2, View.ld_unit_zero (S := S1536x512) hz2]
  refine (stack_kernel inb_S256x2x512_S256x1x512_0_0_0 inb_S256x2x512_S256x1x512_0_1_0 shapeCasts_S256x512_S256x1x512
    (k0_pay8 (k0_pay2 (uitofp (F := Ideal) .f32 msk) (View.ld hid r0_2))
      (k0_pay6 x (uitofp (F := Ideal) .f32 msk) (View.ld hid r0_2) (shapeCast S1x1536 bi0 shapeCasts_S1536_S1x1536)
        (shapeCast S1x1536 bh0 shapeCasts_S1536_S1x1536) Wi0 Wh0)
      (k0_pay7 x (uitofp (F := Ideal) .f32 msk) (View.ld hid r0_2) (shapeCast S1x1536 bi0 shapeCasts_S1536_S1x1536)
        (shapeCast S1x1536 bh0 shapeCasts_S1536_S1x1536) Wi0 Wh0))
    (k0_pay9 (k0_pay2 (uitofp (F := Ideal) .f32 msk) (View.ld hid r0_2)) (k0_pay3 (uitofp (F := Ideal) .f32 msk) (View.ld hid r0_3))
      (k0_pay6 x (uitofp (F := Ideal) .f32 msk) (View.ld hid r0_2) (shapeCast S1x1536 bi0 shapeCasts_S1536_S1x1536)
        (shapeCast S1x1536 bh0 shapeCasts_S1536_S1x1536) Wi0 Wh0)
      (k0_pay7 x (uitofp (F := Ideal) .f32 msk) (View.ld hid r0_2) (shapeCast S1x1536 bi0 shapeCasts_S1536_S1x1536)
        (shapeCast S1x1536 bh0 shapeCasts_S1536_S1x1536) Wi0 Wh0)
      (shapeCast S1x1536 bi1 shapeCasts_S1536_S1x1536) (shapeCast S1x1536 bh1 shapeCasts_S1536_S1x1536) Wi1 Wh1)
    (cover0_12 _ _)).trans ?_
  rw [body_layer0 x hid msk Wi0 Wh0 bi0 bh0, body_layer1' x hid msk Wi0 Wh0 bi0 bh0 Wi1 Wh1 bi1 bh1]
  rfl

/-! ## What the region finds in the buffers the host wrote -/

/-- The row bits converted to numbers. -/
theorem V_bits (c : Dev nD) :
    (V m c main_v0 : FVec Ideal S256x1 .f32) = uitofp (F := Ideal) .f32 (m ((c : Thread nD τ).loc main_arg2)) := by
  dsimp only [Gen.V, Gen.hostOps0]; after_results

/-- Each bias vector laid out as one row. -/
theorem V_row1 (c : Dev nD) :
    (V m c main_v1 : FVec Ideal S1x1536 .f32) = shapeCast S1x1536 (m ((c : Thread nD τ).loc main_arg5)) shapeCasts_S1536_S1x1536 := by
  dsimp only [Gen.V, Gen.hostOps0]; after_results; rfl
theorem V_row2 (c : Dev nD) :
    (V m c main_v2 : FVec Ideal S1x1536 .f32) = shapeCast S1x1536 (m ((c : Thread nD τ).loc main_arg6)) shapeCasts_S1536_S1x1536 := by
  dsimp only [Gen.V, Gen.hostOps0]; after_results; rfl
theorem V_row3 (c : Dev nD) :
    (V m c main_v3 : FVec Ideal S1x1536 .f32) = shapeCast S1x1536 (m ((c : Thread nD τ).loc main_arg9)) shapeCasts_S1536_S1x1536 := by
  dsimp only [Gen.V, Gen.hostOps0]; after_results; rfl
theorem V_row4 (c : Dev nD) :
    (V m c main_v4 : FVec Ideal S1x1536 .f32) = shapeCast S1x1536 (m ((c : Thread nD τ).loc main_arg10)) shapeCasts_S1536_S1x1536 := by
  dsimp only [Gen.V, Gen.hostOps0]; after_results; rfl

/-! ## The one point's blocks are the arrays

The grid has one point and every window is whole: its block index is zero on every axis (decided over the one
point), so a block's index sits at the same index of the array, coordinate by coordinate. -/

/-- A coordinate at block index zero: `0 · size + 1 · n = n`. -/
theorem coord_zero {k : Nat} (d n : Nat) (hk : k = 0) : k * d + 1 * n = n := by subst hk; omega

/-- The step's input. -/
theorem blk0 (c : Dev nD) (t : Fin cfg0.N) : (iblk m c 0 t : Vec Ideal S256x512 .f32) = V m c main_arg0 := by
  have hi : ∀ t : Fin cfg0.N, win0_0.index t (0 : Fin 2) = 0 ∧ win0_0.index t (1 : Fin 2) = 0 :=
    (by decide +kernel : ∀ t : Fin grid0.N, _)
  funext y
  show (V m c main_arg0 : Vec Ideal S256x512 .f32) (((cfg0.win 0).blk t).view.emb y) = (V m c main_arg0 : Vec Ideal S256x512 .f32) y
  refine congrArg (V m c main_arg0 : Vec Ideal S256x512 .f32) (funext fun a => Fin.ext ?_)
  match a with
  | ⟨0, _⟩ => exact coord_zero 256 (y 0).val (hi t).1
  | ⟨1, _⟩ => exact coord_zero 512 (y 1).val (hi t).2

/-- The hidden states. -/
theorem blk1 (c : Dev nD) (t : Fin cfg0.N) : (iblk m c 1 t : Vec Ideal S256x2x512 .f32) = V m c main_arg1 := by
  have hi : ∀ t : Fin cfg0.N, win0_1.index t (0 : Fin 3) = 0 ∧ win0_1.index t (1 : Fin 3) = 0 ∧ win0_1.index t (2 : Fin 3) = 0 :=
    (by decide +kernel : ∀ t : Fin grid0.N, _)
  funext y
  show (V m c main_arg1 : Vec Ideal S256x2x512 .f32) (((cfg0.win 1).blk t).view.emb y) = (V m c main_arg1 : Vec Ideal S256x2x512 .f32) y
  refine congrArg (V m c main_arg1 : Vec Ideal S256x2x512 .f32) (funext fun a => Fin.ext ?_)
  match a with
  | ⟨0, _⟩ => exact coord_zero 256 (y 0).val (hi t).1
  | ⟨1, _⟩ => exact coord_zero 2 (y 1).val (hi t).2.1
  | ⟨2, _⟩ => exact coord_zero 512 (y 2).val (hi t).2.2

/-- The row bits as numbers. -/
theorem blk2 (c : Dev nD) (t : Fin cfg0.N) : (iblk m c 2 t : Vec Ideal S256x1 .f32) = V m c main_v0 := by
  have hi : ∀ t : Fin cfg0.N, win0_2.index t (0 : Fin 2) = 0 ∧ win0_2.index t (1 : Fin 2) = 0 :=
    (by decide +kernel : ∀ t : Fin grid0.N, _)
  funext y
  show (V m c main_v0 : Vec Ideal S256x1 .f32) (((cfg0.win 2).blk t).view.emb y) = (V m c main_v0 : Vec Ideal S256x1 .f32) y
  refine congrArg (V m c main_v0 : Vec Ideal S256x1 .f32) (funext fun a => Fin.ext ?_)
  match a with
  | ⟨0, _⟩ => exact coord_zero 256 (y 0).val (hi t).1
  | ⟨1, _⟩ => exact coord_zero 1 (y 1).val (hi t).2

/-- The first layer's input weights. -/
theorem blk3 (c : Dev nD) (t : Fin cfg0.N) : (iblk m c 3 t : Vec Ideal S1536x512 .f32) = V m c main_arg3 := by
  have hi : ∀ t : Fin cfg0.N, win0_3.index t (0 : Fin 2) = 0 ∧ win0_3.index t (1 : Fin 2) = 0 :=
    (by decide +kernel : ∀ t : Fin grid0.N, _)
  funext y
  show (V m c main_arg3 : Vec Ideal S1536x512 .f32) (((cfg0.win 3).blk t).view.emb y) = (V m c main_arg3 : Vec Ideal S1536x512 .f32) y
  refine congrArg (V m c main_arg3 : Vec Ideal S1536x512 .f32) (funext fun a => Fin.ext ?_)
  match a with
  | ⟨0, _⟩ => exact coord_zero 1536 (y 0).val (hi t).1
  | ⟨1, _⟩ => exact coord_zero 512 (y 1).val (hi t).2

/-- The first layer's hidden weights. -/
theorem blk4 (c : Dev nD) (t : Fin cfg0.N) : (iblk m c 4 t : Vec Ideal S1536x512 .f32) = V m c main_arg4 := by
  have hi : ∀ t : Fin cfg0.N, win0_4.index t (0 : Fin 2) = 0 ∧ win0_4.index t (1 : Fin 2) = 0 :=
    (by decide +kernel : ∀ t : Fin grid0.N, _)
  funext y
  show (V m c main_arg4 : Vec Ideal S1536x512 .f32) (((cfg0.win 4).blk t).view.emb y) = (V m c main_arg4 : Vec Ideal S1536x512 .f32) y
  refine congrArg (V m c main_arg4 : Vec Ideal S1536x512 .f32) (funext fun a => Fin.ext ?_)
  match a with
  | ⟨0, _⟩ => exact coord_zero 1536 (y 0).val (hi t).1
  | ⟨1, _⟩ => exact coord_zero 512 (y 1).val (hi t).2

/-- The first layer's input bias, as a row. -/
theorem blk5 (c : Dev nD) (t : Fin cfg0.N) : (iblk m c 5 t : Vec Ideal S1x1536 .f32) = V m c main_v1 := by
  have hi : ∀ t : Fin cfg0.N, win0_5.index t (0 : Fin 2) = 0 ∧ win0_5.index t (1 : Fin 2) = 0 :=
    (by decide +kernel : ∀ t : Fin grid0.N, _)
  funext y
  show (V m c main_v1 : Vec Ideal S1x1536 .f32) (((cfg0.win 5).blk t).view.emb y) = (V m c main_v1 : Vec Ideal S1x1536 .f32) y
  refine congrArg (V m c main_v1 : Vec Ideal S1x1536 .f32) (funext fun a => Fin.ext ?_)
  match a with
  | ⟨0, _⟩ => exact coord_zero 1 (y 0).val (hi t).1
  | ⟨1, _⟩ => exact coord_zero 1536 (y 1).val (hi t).2

/-- The first layer's hidden bias, as a row. -/
theorem blk6 (c : Dev nD) (t : Fin cfg0.N) : (iblk m c 6 t : Vec Ideal S1x1536 .f32) = V m c main_v2 := by
  have hi : ∀ t : Fin cfg0.N, win0_6.index t (0 : Fin 2) = 0 ∧ win0_6.index t (1 : Fin 2) = 0 :=
    (by decide +kernel : ∀ t : Fin grid0.N, _)
  funext y
  show (V m c main_v2 : Vec Ideal S1x1536 .f32) (((cfg0.win 6).blk t).view.emb y) = (V m c main_v2 : Vec Ideal S1x1536 .f32) y
  refine congrArg (V m c main_v2 : Vec Ideal S1x1536 .f32) (funext fun a => Fin.ext ?_)
  match a with
  | ⟨0, _⟩ => exact coord_zero 1 (y 0).val (hi t).1
  | ⟨1, _⟩ => exact coord_zero 1536 (y 1).val (hi t).2

/-- The second layer's input weights. -/
theorem blk7 (c : Dev nD) (t : Fin cfg0.N) : (iblk m c 7 t : Vec Ideal S1536x512 .f32) = V m c main_arg7 := by
  have hi : ∀ t : Fin cfg0.N, win0_7.index t (0 : Fin 2) = 0 ∧ win0_7.index t (1 : Fin 2) = 0 :=
    (by decide +kernel : ∀ t : Fin grid0.N, _)
  funext y
  show (V m c main_arg7 : Vec Ideal S1536x512 .f32) (((cfg0.win 7).blk t).view.emb y) = (V m c main_arg7 : Vec Ideal S1536x512 .f32) y
  refine congrArg (V m c main_arg7 : Vec Ideal S1536x512 .f32) (funext fun a => Fin.ext ?_)
  match a with
  | ⟨0, _⟩ => exact coord_zero 1536 (y 0).val (hi t).1
  | ⟨1, _⟩ => exact coord_zero 512 (y 1).val (hi t).2

/-- The second layer's hidden weights. -/
theorem blk8 (c : Dev nD) (t : Fin cfg0.N) : (iblk m c 8 t : Vec Ideal S1536x512 .f32) = V m c main_arg8 := by
  have hi : ∀ t : Fin cfg0.N, win0_8.index t (0 : Fin 2) = 0 ∧ win0_8.index t (1 : Fin 2) = 0 :=
    (by decide +kernel : ∀ t : Fin grid0.N, _)
  funext y
  show (V m c main_arg8 : Vec Ideal S1536x512 .f32) (((cfg0.win 8).blk t).view.emb y) = (V m c main_arg8 : Vec Ideal S1536x512 .f32) y
  refine congrArg (V m c main_arg8 : Vec Ideal S1536x512 .f32) (funext fun a => Fin.ext ?_)
  match a with
  | ⟨0, _⟩ => exact coord_zero 1536 (y 0).val (hi t).1
  | ⟨1, _⟩ => exact coord_zero 512 (y 1).val (hi t).2

/-- The second layer's input bias, as a row. -/
theorem blk9 (c : Dev nD) (t : Fin cfg0.N) : (iblk m c 9 t : Vec Ideal S1x1536 .f32) = V m c main_v3 := by
  have hi : ∀ t : Fin cfg0.N, win0_9.index t (0 : Fin 2) = 0 ∧ win0_9.index t (1 : Fin 2) = 0 :=
    (by decide +kernel : ∀ t : Fin grid0.N, _)
  funext y
  show (V m c main_v3 : Vec Ideal S1x1536 .f32) (((cfg0.win 9).blk t).view.emb y) = (V m c main_v3 : Vec Ideal S1x1536 .f32) y
  refine congrArg (V m c main_v3 : Vec Ideal S1x1536 .f32) (funext fun a => Fin.ext ?_)
  match a with
  | ⟨0, _⟩ => exact coord_zero 1 (y 0).val (hi t).1
  | ⟨1, _⟩ => exact coord_zero 1536 (y 1).val (hi t).2

/-- The second layer's hidden bias, as a row. -/
theorem blk10 (c : Dev nD) (t : Fin cfg0.N) : (iblk m c 10 t : Vec Ideal S1x1536 .f32) = V m c main_v4 := by
  have hi : ∀ t : Fin cfg0.N, win0_10.index t (0 : Fin 2) = 0 ∧ win0_10.index t (1 : Fin 2) = 0 :=
    (by decide +kernel : ∀ t : Fin grid0.N, _)
  funext y
  show (V m c main_v4 : Vec Ideal S1x1536 .f32) (((cfg0.win 10).blk t).view.emb y) = (V m c main_v4 : Vec Ideal S1x1536 .f32) y
  refine congrArg (V m c main_v4 : Vec Ideal S1x1536 .f32) (funext fun a => Fin.ext ?_)
  match a with
  | ⟨0, _⟩ => exact coord_zero 1 (y 0).val (hi t).1
  | ⟨1, _⟩ => exact coord_zero 1536 (y 1).val (hi t).2

/-- The two result windows' block indices. -/
theorem index11 : ∀ t : Fin cfg0.N, win0_11.index t (0 : Fin 2) = 0 ∧ win0_11.index t (1 : Fin 2) = 0 :=
  (by decide +kernel : ∀ t : Fin grid0.N, _)
theorem index12 : ∀ t : Fin cfg0.N, win0_12.index t (0 : Fin 3) = 0 ∧ win0_12.index t (1 : Fin 3) = 0 ∧ win0_12.index t (2 : Fin 3) = 0 :=
  (by decide +kernel : ∀ t : Fin grid0.N, _)

/-! ## The result arrays after the run -/

/-- The first result as the specification's function of the argument arrays. -/
abbrev res0 (c : Dev nD) : FVec Ideal S256x512 .f32 :=
  layer1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- The second result as the specification's function of the argument arrays. -/
abbrev res1 (c : Dev nD) : FVec Ideal S256x2x512 .f32 :=
  newHidden (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-- What the body leaves in the first result's buffer, of the blocks at the point. -/
theorem after11 (c : Dev nD) (t : Fin cfg0.N) :
    out0_11 (iblk m c 0 t) (iblk m c 1 t) (iblk m c 2 t) (iblk m c 3 t) (iblk m c 4 t) (iblk m c 5 t) (iblk m c 6 t) (iblk m c 7 t) (iblk m c 8 t) (iblk m c 9 t) (iblk m c 10 t) = res0 m c := by
  rw [blk0, blk1, blk2, blk3, blk4, blk5, blk6, blk7, blk8, blk9, blk10,
    V_main_arg0, V_main_arg1, V_bits, V_main_arg3, V_main_arg4, V_row1, V_row2, V_main_arg7, V_main_arg8, V_row3, V_row4]
  exact out11_eq _ _ _ _ _ _ _ _ _ _ _

/-- What the body leaves in the second result's buffer, of the blocks at the point. -/
theorem after12 (c : Dev nD) (t : Fin cfg0.N) :
    out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) = res1 m c := by
  rw [blk0, blk1, blk2, blk3, blk4, blk5, blk6, blk7, blk8, blk9, blk10,
    V_main_arg0, V_main_arg1, V_bits, V_main_arg3, V_main_arg4, V_row1, V_row2, V_main_arg7, V_main_arg8, V_row3, V_row4]
  exact out12_eq _ _ _ _ _ _ _ _ _ _ _

/-- What the point writes back to the first result's array is the whole of `res0`. -/
theorem flushed11_eq (c : Dev nD) (t : Fin cfg0.N) :
    (dats m 0 c).flushed 11 t = ((cfg0.win 11).blk t).view.read (Elt Ideal) (res0 m c) := by
  rw [Value.flushed11 m c t, after11 m c t]
  obtain ⟨e0, e1⟩ := index11 t
  funext j
  show res0 m c ((cfg0.win 11).xinj (grid0.coords t) j) = res0 m c (((cfg0.win 11).blk t).view.emb j)
  refine congrArg (res0 m c) (funext fun a => Fin.ext ?_)
  match a with
  | ⟨0, _⟩ => show (j 0).val = win0_11.index t (0 : Fin 2) * 256 + 1 * (j 0).val; omega
  | ⟨1, _⟩ => show (j 1).val = win0_11.index t (1 : Fin 2) * 512 + 1 * (j 1).val; omega

/-- What the point writes back to the second result's array is the whole of `res1`. -/
theorem flushed12_eq (c : Dev nD) (t : Fin cfg0.N) :
    (dats m 0 c).flushed 12 t = ((cfg0.win 12).blk t).view.read (Elt Ideal) (res1 m c) := by
  rw [Value.flushed12 m c t, after12 m c t]
  obtain ⟨e0, e1, e2⟩ := index12 t
  funext j
  show res1 m c ((cfg0.win 12).xinj (grid0.coords t) j) = res1 m c (((cfg0.win 12).blk t).view.emb j)
  refine congrArg (res1 m c) (funext fun a => Fin.ext ?_)
  match a with
  | ⟨0, _⟩ => show (j 0).val = win0_12.index t (0 : Fin 3) * 256 + 1 * (j 0).val; omega
  | ⟨1, _⟩ => show (j 1).val = win0_12.index t (1 : Fin 3) * 2 + 1 * (j 1).val; omega
  | ⟨2, _⟩ => show (j 2).val = win0_12.index t (2 : Fin 3) * 512 + 1 * (j 2).val; omega

/-- An index of the first result's array is in the point's block iff each coordinate is in the block's range. -/
theorem mem_blk11 (t : Fin cfg0.N) (i : S256x512.Idx) :
    i ∈ ((cfg0.win 11).blk t).view.set ↔ ∀ a : Fin 2, win0_11.index t a * S256x512.size a ≤ (i a).val ∧ (i a).val < win0_11.index t a * S256x512.size a + S256x512.size a := by
  show i ∈ ((View.whole main_v5_0).slice (win0_11.rect t)).set ↔ _
  rw [View.set_slice_whole, Rect.mem_set_unit]
  exact Iff.rfl

theorem mem_blk12 (t : Fin cfg0.N) (i : S256x2x512.Idx) :
    i ∈ ((cfg0.win 12).blk t).view.set ↔ ∀ a : Fin 3, win0_12.index t a * S256x2x512.size a ≤ (i a).val ∧ (i a).val < win0_12.index t a * S256x2x512.size a + S256x2x512.size a := by
  show i ∈ ((View.whole main_v5_1).slice (win0_12.rect t)).set ↔ _
  rw [View.set_slice_whole, Rect.mem_set_unit]
  exact Iff.rfl

/-- The one block covers the first result's array. -/
theorem cover11 (i : S256x512.Idx) : ∃ t : Fin cfg0.N, (cfg0.win 11).flush t = true ∧ i ∈ ((cfg0.win 11).blk t).view.set := by
  refine ⟨t0_0, flush0_11 t0_0, ?_⟩
  rw [mem_blk11]
  obtain ⟨e0, e1⟩ := index11 t0_0
  have h0 : (i 0).val < 256 := (i 0).isLt
  have h1 : (i 1).val < 512 := (i 1).isLt
  intro a
  match a with
  | ⟨0, _⟩ => show win0_11.index t0_0 (0 : Fin 2) * 256 ≤ (i 0).val ∧ (i 0).val < win0_11.index t0_0 (0 : Fin 2) * 256 + 256; omega
  | ⟨1, _⟩ => show win0_11.index t0_0 (1 : Fin 2) * 512 ≤ (i 1).val ∧ (i 1).val < win0_11.index t0_0 (1 : Fin 2) * 512 + 512; omega

/-- The one block covers the second result's array. -/
theorem cover12 (i : S256x2x512.Idx) : ∃ t : Fin cfg0.N, (cfg0.win 12).flush t = true ∧ i ∈ ((cfg0.win 12).blk t).view.set := by
  refine ⟨t0_0, flush0_12 t0_0, ?_⟩
  rw [mem_blk12]
  obtain ⟨e0, e1, e2⟩ := index12 t0_0
  have h0 : (i 0).val < 256 := (i 0).isLt
  have h1 : (i 1).val < 2 := (i 1).isLt
  have h2 : (i 2).val < 512 := (i 2).isLt
  intro a
  match a with
  | ⟨0, _⟩ => show win0_12.index t0_0 (0 : Fin 3) * 256 ≤ (i 0).val ∧ (i 0).val < win0_12.index t0_0 (0 : Fin 3) * 256 + 256; omega
  | ⟨1, _⟩ => show win0_12.index t0_0 (1 : Fin 3) * 2 ≤ (i 1).val ∧ (i 1).val < win0_12.index t0_0 (1 : Fin 3) * 2 + 2; omega
  | ⟨2, _⟩ => show win0_12.index t0_0 (2 : Fin 3) * 512 ≤ (i 2).val ∧ (i 2).val < win0_12.index t0_0 (2 : Fin 3) * 512 + 512; omega

/-- The first result's array after the run. -/
theorem final11 (c : Dev nD) : (dats m 0 c).arrAt 11 cfg0.N = res0 m c :=
  (dats m 0 c).arrAt_eq_of_cover 11 _ (fun t _ => flushed11_eq m c t) cover11

/-- The second result's array after the run. -/
theorem final12 (c : Dev nD) : (dats m 0 c).arrAt 12 cfg0.N = res1 m c :=
  (dats m 0 c).arrAt_eq_of_cover 12 _ (fun t _ => flushed12_eq m c t) cover12

/-- The kernel's run: every weakly fair execution ends with the two results at the specification's functions of
    the argument arrays, and the arguments unchanged. -/
theorem run : θ_run defs (onTc (τ := τ) (main (F := Ideal))) ⟨m, fun _ => 0, ρ⟩ fun r => ∀ c : Dev nD,
      r.2.mem ((c : Thread nD τ).loc main_v5_0) = res0 m c
      ∧ r.2.mem ((c : Thread nD τ).loc main_v5_1) = res1 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final11 m c), (h c).2.1.trans (final12 m c), (h c).2.2⟩)
    (Value.run_blocks m ρ)

end Cert.KernelIdeal.GruValue

end
-- ==== Proof.RefValue.lean ====
/-
  The host program's two results as the specification's functions of the argument arrays.

  The reference is read stage by stage. The hidden states are transposed, reset under the row bits and cut into the
  two layers; each layer's two pre-activations are a product with a transposed weight matrix plus a broadcast bias;
  the gates are spelt with `1 / (1 + e^(−v))`; the two new states are stacked in front and the stack's axis moved
  to the middle. Each group of stages is one of the general forms, so every stage equation below only unfolds the
  stages of its group and cites the form.
-/
import proofs.«178600_g23510650978938_cont_8to1_1664_2_alg».proof.Proof.Gen.ReferenceIdeal.Read
import proofs.«178600_g23510650978938_cont_8to1_1664_2_alg».proof.Proof.Forms

noncomputable section

namespace Cert.ReferenceIdeal.GruValue

open Cert.ReferenceIdeal Cert.ReferenceIdeal.Gen Cert.ReferenceIdeal.Read Idealize.ShloMosaic Idealize.ShloMosaic.TcCoe Idealize.SL.Sem
open Cert.Gru

variable (x0 : FVec Ideal S256x512 .f32) (x1 : FVec Ideal S256x2x512 .f32) (x2 : IVec S256x1 1)
  (x3 x4 : FVec Ideal S1536x512 .f32) (x5 x6 : FVec Ideal S1536 .f32)
  (x7 x8 : FVec Ideal S1536x512 .f32) (x9 x10 : FVec Ideal S1536 .f32)

/-- The first layer's hidden state as the host resets it. -/
theorem reset0 : val_main_v4 (F := Ideal) x1 x2 = hreset 0 x1 x2 := by
  unfold val_main_v4 val_main_v3 val_main_v2 val_main_call0_v0 val_main_call0_v1 val_main_v1 val_main_v0 val_main_cst
  exact hreset_host 0 (by omega) _ _ _ _ _ _ x1 x2

/-- The second layer's. -/
theorem reset1 : val_main_v44 (F := Ideal) x1 x2 = hreset 1 x1 x2 := by
  unfold val_main_v44 val_main_v43 val_main_v2 val_main_call0_v0 val_main_call0_v1 val_main_v1 val_main_v0 val_main_cst
  exact hreset_host 1 (by omega) _ _ _ _ _ _ x1 x2

/-- The first layer's input pre-activation. -/
theorem gi0 : val_main_v9 (F := Ideal) x0 x3 x5 = affine x0 x3 x5 := by
  unfold val_main_v9 val_main_v6 val_main_v5 val_main_v8 val_main_v7
  exact affine_host _ _ _ _ x0 x3 x5

/-- The first layer's hidden pre-activation. -/
theorem gh0 : val_main_v14 (F := Ideal) x1 x2 x4 x6 = affine (hreset 0 x1 x2) x4 x6 := by
  unfold val_main_v14 val_main_v11 val_main_v10 val_main_v13 val_main_v12
  rw [reset0]
  exact affine_host _ _ _ _ _ x4 x6

/-- The first layer's new state. -/
theorem cell0 : val_main_v42 (F := Ideal) x0 x1 x2 x3 x4 x5 x6 = layer0 x0 x1 x2 x3 x4 x5 x6 := by
  unfold val_main_v42 val_main_v41 val_main_v40 val_main_v39 val_main_v38 val_main_cst_4 val_main_v37 val_main_v36
    val_main_v35 val_main_v34 val_main_v33 val_main_cst_3 val_main_v32 val_main_v31 val_main_cst_2 val_main_v30 val_main_v29
    val_main_v28 val_main_v27 val_main_v26 val_main_cst_1 val_main_v25 val_main_v24 val_main_cst_0 val_main_v23 val_main_v22
    val_main_v21 val_main_v20 val_main_v19 val_main_v18 val_main_v17 val_main_v16 val_main_v15
  refine (cell_host bcast_S_S256x512 slices_S256x1536_S256x512_0_0 slices_S256x1536_S256x512_0_512 slices_S256x1536_S256x512_0_1024
    (val_main_v9 (F := Ideal) x0 x3 x5) (val_main_v14 (F := Ideal) x1 x2 x4 x6) (val_main_v4 (F := Ideal) x1 x2)).trans ?_
  rw [gi0, gh0, reset0]
  rfl

/-- The second layer's input pre-activation: the first layer's new state through its weights. -/
theorem gi1 : val_main_v49 (F := Ideal) x0 x1 x2 x3 x4 x5 x6 x7 x9 = affine (layer0 x0 x1 x2 x3 x4 x5 x6) x7 x9 := by
  unfold val_main_v49 val_main_v46 val_main_v45 val_main_v48 val_main_v47
  rw [cell0]
  exact affine_host _ _ _ _ _ x7 x9

/-- The second layer's hidden pre-activation. -/
theorem gh1 : val_main_v54 (F := Ideal) x1 x2 x8 x10 = affine (hreset 1 x1 x2) x8 x10 := by
  unfold val_main_v54 val_main_v51 val_main_v50 val_main_v53 val_main_v52
  rw [reset1]
  exact affine_host _ _ _ _ _ x8 x10

/-- The second layer's new state. -/
theorem cell1 : val_main_v82 (F := Ideal) x0 x1 x2 x3 x4 x5 x6 x7 x8 x9 x10 = layer1 x0 x1 x2 x3 x4 x5 x6 x7 x8 x9 x10 := by
  unfold val_main_v82 val_main_v81 val_main_v80 val_main_v79 val_main_v78 val_main_cst_9 val_main_v77 val_main_v76
    val_main_v75 val_main_v74 val_main_v73 val_main_cst_8 val_main_v72 val_main_v71 val_main_cst_7 val_main_v70 val_main_v69
    val_main_v68 val_main_v67 val_main_v66 val_main_cst_6 val_main_v65 val_main_v64 val_main_cst_5 val_main_v63 val_main_v62
    val_main_v61 val_main_v60 val_main_v59 val_main_v58 val_main_v57 val_main_v56 val_main_v55
  refine (cell_host bcast_S_S256x512 slices_S256x1536_S256x512_0_0 slices_S256x1536_S256x512_0_512 slices_S256x1536_S256x512_0_1024
    (val_main_v49 (F := Ideal) x0 x1 x2 x3 x4 x5 x6 x7 x9) (val_main_v54 (F := Ideal) x1 x2 x8 x10) (val_main_v44 (F := Ideal) x1 x2)).trans ?_
  rw [gi1, gh1, reset1]
  rfl

/-- The two new states, stacked. -/
theorem stacked : val_main_v86 (F := Ideal) x0 x1 x2 x3 x4 x5 x6 x7 x8 x9 x10 = newHidden x0 x1 x2 x3 x4 x5 x6 x7 x8 x9 x10 := by
  unfold val_main_v86 val_main_v85 val_main_v84 val_main_v83
  rw [cell0, cell1]
  exact stack_host _ _ _ _ _

end Cert.ReferenceIdeal.GruValue

end
-- ==== Proof.lean ====
/-
  A single step of a two-layer gated recurrent unit, fused into one kernel, against its plain reference: both end
  with the same two results on the extended reals.

  The kernel resets each layer's hidden state by multiplying its rows with the row bit read as 0 or 1, computes
  for each layer the two affine maps `x Wᵀ + b` (a product contracted on the weight matrix's columns, the bias a
  row broadcast down), and applies the gate arithmetic `r = σ(·)`, `z = σ(·)`, `n = tanh(· + r ·)`,
  `(1 − z) n + z h`; it stores the top layer's state as the first result and both layers' states, each in its slab
  of the middle axis, as the second. The reference selects against zero instead of multiplying, multiplies by the
  transposed weights, spells the logistic as `1 / (1 + e^(−v))`, and stacks then transposes the two states.
  Every difference is a re-spelling that holds on every extended real (`h · 0 = 0` and `h · 1 = h` need no
  finiteness), so the precondition is never opened.

  Proof/Spec.lean states the step as functions of the argument arrays; Proof/Forms.lean reads the kernel's and the
  host's spelling of each piece to them; Proof/KernelValue.lean and Proof/RefValue.lean carry the two programs'
  runs to those functions. The frames are the generated ones (the reference's is its generated run with the
  results dropped), and the idealization rewrote nothing.
-/
import proofs.«178600_g23510650978938_cont_8to1_1664_2_alg».proof.Defs
import proofs.«178600_g23510650978938_cont_8to1_1664_2_alg».proof.Proof.Gen.Kernel
import proofs.«178600_g23510650978938_cont_8to1_1664_2_alg».proof.Proof.Gen.Kernel.Skeleton
import proofs.«178600_g23510650978938_cont_8to1_1664_2_alg».proof.Proof.Gen.Kernel.Launch
import proofs.«178600_g23510650978938_cont_8to1_1664_2_alg».proof.Proof.Gen.Kernel.Points
import proofs.«178600_g23510650978938_cont_8to1_1664_2_alg».proof.Proof.Gen.Kernel.Frame
import proofs.«178600_g23510650978938_cont_8to1_1664_2_alg».proof.Proof.Gen.KernelIdeal
import proofs.«178600_g23510650978938_cont_8to1_1664_2_alg».proof.Proof.Gen.KernelIdeal.Skeleton
import proofs.«178600_g23510650978938_cont_8to1_1664_2_alg».proof.Proof.Gen.KernelIdeal.Launch
import proofs.«178600_g23510650978938_cont_8to1_1664_2_alg».proof.Proof.Gen.KernelIdeal.Points
import proofs.«178600_g23510650978938_cont_8to1_1664_2_alg».proof.Proof.Gen.KernelIdeal.Frame
import proofs.«178600_g23510650978938_cont_8to1_1664_2_alg».proof.Proof.Gen.ReferenceIdeal
import proofs.«178600_g23510650978938_cont_8to1_1664_2_alg».proof.Proof.Gen.Pre_finite_inputs
import proofs.«178600_g23510650978938_cont_8to1_1664_2_alg».proof.Proof.Gen.KernelIdeal.Value
import proofs.«178600_g23510650978938_cont_8to1_1664_2_alg».proof.Proof.Gen.ReferenceIdeal.Run
import proofs.«178600_g23510650978938_cont_8to1_1664_2_alg».proof.Proof.Gen.ReferenceIdeal.Read
import proofs.«178600_g23510650978938_cont_8to1_1664_2_alg».proof.Proof.KernelValue
import proofs.«178600_g23510650978938_cont_8to1_1664_2_alg».proof.Proof.RefValue
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- Both programs end with the specification's two functions of the argument arrays, on which the two memories
    agree. -/
theorem algebraic : Cert.algebraic_KernelIdeal_ReferenceIdeal := by
  intro m ρ m' ρ' _ hagree
  refine ⟨fun c => Cert.KernelIdeal.GruValue.res0 m c, fun c => Cert.KernelIdeal.GruValue.res1 m c,
    Cert.KernelIdeal.GruValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10⟩ := hagree c
    rw [Cert.ReferenceIdeal.Read.val_main_v82_eq, Cert.ReferenceIdeal.GruValue.cell1, a0, a1, a2, a3, a4, a5, a6, a7, a8, a9, a10]
  · obtain ⟨a0, a1, a2, a3, a4, a5, a6, a7, a8, a9, a10⟩ := hagree c
    rw [Cert.ReferenceIdeal.Read.val_main_v86_eq, Cert.ReferenceIdeal.GruValue.stacked, a0, a1, a2, a3, a4, a5, a6, a7, a8, a9, a10]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
